-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S64x128 : Shape := ⟨2, ![64, 128]⟩
abbrev S10000x64 : Shape := ⟨2, ![10000, 64]⟩
abbrev S64x1 : Shape := ⟨2, ![64, 1]⟩
abbrev S1x1 : Shape := ⟨2, ![1, 1]⟩

abbrev nBuf : Space → Nat
  | .hbm => 115
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x1, .i32⟩
  | .hbm, ⟨91, _⟩ => ⟨S64, .i32⟩
  | .hbm, ⟨92, _⟩ => ⟨S1x64, .i32⟩
  | .hbm, ⟨93, _⟩ => ⟨S100000x64, .i32⟩
  | .hbm, ⟨94, _⟩ => ⟨S100000x64, .i32⟩
  | .hbm, ⟨95, _⟩ => ⟨S100000x64, .i1⟩
  | .hbm, ⟨96, _⟩ => ⟨S100000x64, .bf16⟩
  | .hbm, ⟨97, _⟩ => ⟨S64x128, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S64, .f32⟩
  | .hbm, ⟨102, _⟩ => ⟨S100000x1, .i32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64x1, .f32⟩
  | .hbm, ⟨108, _⟩ => ⟨S64x128, .f32⟩
  | .hbm, ⟨109, _⟩ => ⟨S64x128, .f32⟩
  | .hbm, ⟨110, _⟩ => ⟨S64x1, .f32⟩
  | .hbm, ⟨111, _⟩ => ⟨S1x1, .f32⟩
  | .hbm, ⟨112, _⟩ => ⟨S64x1, .f32⟩
  | .hbm, ⟨113, _⟩ => ⟨S64x1, .f32⟩
  | .hbm, ⟨114, _⟩ => ⟨S64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x64, .bf16⟩
  | .local _ .vmem, ⟨21, _⟩ => ⟨S10000x64, .bf16⟩
  | .local _ .vmem, ⟨22, _⟩ => ⟨S10000x128, .f32⟩
  | .local _ .vmem, ⟨23, _⟩ => ⟨S10000x128, .f32⟩
  | .local _ .vmem, ⟨24, _⟩ => ⟨S64x128, .f32⟩
  | .local _ .vmem, ⟨25, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x64_S10000x128_S64x128_0_0_1_1_n_n_wf : DotDims.WF S10000x64 S10000x128 S64x128 [0] [0] [1] [1] [] []
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .bf16 = 32 ∨ (Rect.block (s := S100000x64) S10000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S64x128, .f32⟩
  | .hbm, ⟨100, _⟩ => ⟨S100000x1, .i32⟩
  | .hbm, ⟨101, _⟩ => ⟨S64x128, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S64, .f32⟩
  | .hbm, ⟨106, _⟩ => ⟨S100000x1, .i32⟩
  | .hbm, ⟨107, _⟩ => ⟨S64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | .hbm, ⟨112, _⟩ => ⟨S64x128, .f32⟩
  | .hbm, ⟨113, _⟩ => ⟨S64x128, .f32⟩
  | .hbm, ⟨114, _⟩ => ⟨S64x1, .f32⟩
  | .hbm, ⟨115, _⟩ => ⟨S1x1, .f32⟩
  | .hbm, ⟨116, _⟩ => ⟨S64x1, .f32⟩
  | .hbm, ⟨117, _⟩ => ⟨S64x1, .f32⟩
  | .hbm, ⟨118, _⟩ => ⟨S64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KI.RegA0.lean ====
/-
  Region 0 of the program: the first layer's dense product, one block of 10000 rows of the node features against the
  whole 128 x 128 weight matrix per grid point, ten points.

  Stated at any contents `V` of the TensorCore's buffers when the region is entered. A window's block at a point is the
  rectangle of its array the index map names there, read off `V`. The body loads the row block and the weights, and
  stores one value over the whole output block: the product of the two loads. So after the body the output's staging
  buffer holds that product of the point's two input blocks, and the inputs' buffers hold what they held: the row
  block (fetched at every point) and the weights (fetched once, the index never moving afterwards). Nothing is carried
  from point to point, so the region's invariant is the plain one: the scratch at anything, the generator register at
  some state.
-/
import proofs.«414571_j14362370638253_1_alg».proof.Proof.Gen.KernelIdeal.Launch
import proofs.«414571_j14362370638253_1_alg».proof.Proof.Gen.KernelIdeal.Skeleton
import proofs.«414571_j14362370638253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array the index map names there, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the point's block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second operand, fetched at the first point only: its index never moves, so the buffer still
    holds the one block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole row block, and the whole second operand, as rectangles of their buffers. -/
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-- What the body leaves in the output's staging buffer, from the two input blocks: one store over the whole block. -/
def out0_2 (x0 : Vec F S10000x128 .f32) (x1 : Vec F S128x128 .f32) : Vec F S10000x128 .f32 :=
  View.canon [⟨r0_0, k0_pay1 (View.ld x0 r0_0) (View.ld x1 r0_1)⟩]

/-- That one store covers the buffer. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

set_option maxHeartbeats 1000000 in
/-- The body on whole staging memrefs, the inputs' at contents `x0`, `x1` and the output's at anything, runs to the
    continuation with the inputs' as they were and the output's at `out0_2 x0 x1`. -/
theorem sound_kernel0 (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t`
    each input's buffer at its block and the output's at the product of the two; the plain invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.R4Run.lean ====
/-
  Region 4 of the program, the pooling: what its runs share, and the body's run in each of its three cases.

  The grid has ten points; point t stages rows 10000 t .. 10000 t + 9999 of the one-hot matrix [100000, 64] and of the
  second layer's output [100000, 128]. The body keeps a [64, 128] accumulator in a scratch buffer of its own: at the
  first point it stores zeros there; at every point it adds to it the product of the transposed one-hot block with the
  feature block; at the last point it copies the accumulator to the output block [64, 128], whose block index never
  moves, so that the pipeline writes it back once, after the last point. So the body has three cases: the first point
  (reset, add), a middle point (add to what the point before left), the last point (add, then store the output). At a
  point that is not the last the output's staging buffer is left as it was found.

  Each case's run is stated as a witness the symbolic run finds: the list of pieces the body's stores leave in the
  scratch (and, at the last point, in the output's buffer), with the proof that from whole staging memrefs holding the
  input blocks the body reaches its continuation with those pieces written.
-/
import proofs.«414571_j14362370638253_1_alg».proof.Proof.Gen.KernelIdeal.Launch
import proofs.«414571_j14362370638253_1_alg».proof.Proof.Gen.KernelIdeal.Skeleton
import proofs.«414571_j14362370638253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array the index map names there, read off `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The one-hot block's staging buffer holds the point's block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The feature block's staging buffer holds the point's block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- "This is the first point", as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- "This is the last point". -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Before the last point the output is idle: the body stores nothing into it, and its block is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- At the last point it is live: the body stores the accumulator into it. -/
theorem liveAt4_2 : ∀ t : Fin cfg4.N, cond4_1 (grid4.coords t) → cfg4.idle 2 (grid4.coords t) = false := by decide +kernel

/-! ## The memrefs the body is called with -/

abbrev ms4_0 (t : Fin cfg4.N) : Memref sig .tc .vmem S10000x64 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x128 .f32 := win4_2.stage (cfg4.slots t 2)
abbrev hs4_2 (t : Fin cfg4.N) : (ms4_2 t).IsWhole := hstage4_2 ((cfg4.slots t 2).cast nbuf4_2)
/-- The accumulator: a whole scratch buffer of the kernel's own. -/
abbrev scM4 : Memref sig .tc .vmem S64x128 .f32 := Memref.whole cc4_scratch0
/-- The views through which the output block's and the accumulator's contents are stated. -/
abbrev VO4 : View sig .tc .vmem S64x128 .f32 := (Memref.whole cc4_stg2_0 : Memref sig .tc .vmem S64x128 .f32).view
abbrev VS4 : View sig .tc .vmem S64x128 .f32 := scM4.view

/-! ## The body's run, case by case -/

set_option maxHeartbeats 2000000 in
/-- THE FIRST POINT (not the last): the accumulator, found at anything, ends with the pieces of the reset and of one
    addition; the output's buffer is handed back as found. -/
noncomputable def kernelRun4_A (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : cond4_0 i) (hc1 : ¬cond4_1 i)
    (x0 : Vec F S10000x64 .bf16) (x1 : Vec F S10000x128 .f32) :
    Σ' (L2 : List (View.Piece (Elt F) S64x128 .f32)), { LS0 : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__pool_kernel i arg1 harg1 arg2 harg2 arg3 harg3 arg4 harg4) K } := by
  refine ⟨[], ?_, fun xi2 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 2000000 in
/-- A MIDDLE POINT: the accumulator, found at what the point before left (`xs`), ends with the piece of one addition;
    the output's buffer is handed back as found. -/
noncomputable def kernelRun4_B (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : ¬cond4_1 i)
    (x0 : Vec F S10000x64 .bf16) (x1 : Vec F S10000x128 .f32) (xs : Vec F S64x128 .f32) :
    Σ' (L2 : List (View.Piece (Elt F) S64x128 .f32)), { LS0 : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__pool_kernel i arg1 harg1 arg2 harg2 arg3 harg3 arg4 harg4) K } := by
  refine ⟨[], ?_, fun xi2 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 2000000 in
/-- THE LAST POINT (not the first): the accumulator, found at what the point before left, ends with the piece of one
    addition, and the output's buffer, found at anything, with the piece of the copy. -/
noncomputable def kernelRun4_C (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : cond4_1 i)
    (x0 : Vec F S10000x64 .bf16) (x1 : Vec F S10000x128 .f32) (xs : Vec F S64x128 .f32) :
    Σ' (L2 : List (View.Piece (Elt F) S64x128 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc4__pool_kernel i arg1 harg1 arg2 harg2 arg3 harg3 arg4 harg4) K } := by
  refine ⟨?_, ?_, fun E K => ?run⟩
  case run =>
    simp only [cc4__pool_kernel_eq_skeleton]; unfold cc4__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Reg

end
-- ==== Proof.KI.RegR4.lean ====
/-
  Region 4 of the program, the pooling: what its accumulator and its output hold point by point, the proof data, the
  body obligation and the region's invariant.

  After point n the accumulator holds what the case of point n leaves over what point n - 1 left (over anything at the
  first point, which resets it); the output's staging buffer holds the accumulator's copy at the last point and is not
  stated at the others, where the window is idle. The invariant before point n is: the accumulator at what point n - 1
  left (at anything before the first point), every other scoped buffer at anything, the generator register at some state.
-/
import proofs.«414571_j14362370638253_1_alg».proof.Proof.KI.R4Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The plain invariant, with the accumulator split off -/

/-- Every scoped buffer of the core that is neither a staging buffer of this region nor its accumulator, at anything:
    the other regions' staging buffers, carried unopened. -/
abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA
  rw [Pipeline.scopedRest_split_of_list spec4 c [cc4_scratch0] (by decide) (by decide)]
  simp only [scM4, owns_whole]; try rfl

/-! ## What each case leaves -/

theorem scover4_A (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : cond4_0 i) (hc1 : ¬cond4_1 i) (x0 : Vec F S10000x64 .bf16) (x1 : Vec F S10000x128 .f32) (y : S64x128.Idx) :
    ∃ pc ∈ (kernelRun4_A c i arg1 harg1 arg2 harg2 arg3 harg3 arg4 harg4 hc0 hc1 x0 x1).2.1, y ∈ pc.1.set :=
  View.cover_of_tiledL (kernelRun4_A c i arg1 harg1 arg2 harg2 arg3 harg3 arg4 harg4 hc0 hc1 x0 x1).2.1 S64x128.size (by sl_kernel_rfl) y
/-- What the first point leaves in the accumulator. -/
def sout4_A (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : cond4_0 i) (hc1 : ¬cond4_1 i) (x0 : Vec F S10000x64 .bf16) (x1 : Vec F S10000x128 .f32) : Vec F S64x128 .f32 :=
  VS4.read (Elt F) (VS4.writes (Elt F) VS4.junk (kernelRun4_A c i arg1 harg1 arg2 harg2 arg3 harg3 arg4 harg4 hc0 hc1 x0 x1).2.1)
/-- The output's buffer is not stated at a point that leaves it idle: a placeholder nothing consults. -/
def out4_A (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : cond4_0 i) (hc1 : ¬cond4_1 i) (x0 : Vec F S10000x64 .bf16) (x1 : Vec F S10000x128 .f32) : Vec F S64x128 .f32 :=
  VO4.read (Elt F) (VO4.writes (Elt F) VO4.junk (kernelRun4_A c i arg1 harg1 arg2 harg2 arg3 harg3 arg4 harg4 hc0 hc1 x0 x1).1)

theorem scover4_B (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : ¬cond4_1 i) (x0 : Vec F S10000x64 .bf16) (x1 : Vec F S10000x128 .f32) (xs : Vec F S64x128 .f32) (y : S64x128.Idx) :
    ∃ pc ∈ (kernelRun4_B c i arg1 harg1 arg2 harg2 arg3 harg3 arg4 harg4 hc0 hc1 x0 x1 xs).2.1, y ∈ pc.1.set :=
  View.cover_of_tiledL (kernelRun4_B c i arg1 harg1 arg2 harg2 arg3 harg3 arg4 harg4 hc0 hc1 x0 x1 xs).2.1 S64x128.size (by sl_kernel_rfl) y
/-- What a middle point leaves in the accumulator, over what the point before left. -/
def sout4_B (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : ¬cond4_1 i) (x0 : Vec F S10000x64 .bf16) (x1 : Vec F S10000x128 .f32) (xs : Vec F S64x128 .f32) : Vec F S64x128 .f32 :=
  VS4.read (Elt F) (VS4.writes (Elt F) VS4.junk (kernelRun4_B c i arg1 harg1 arg2 harg2 arg3 harg3 arg4 harg4 hc0 hc1 x0 x1 xs).2.1)
def out4_B (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : ¬cond4_1 i) (x0 : Vec F S10000x64 .bf16) (x1 : Vec F S10000x128 .f32) (xs : Vec F S64x128 .f32) : Vec F S64x128 .f32 :=
  VO4.read (Elt F) (VO4.writes (Elt F) VO4.junk (kernelRun4_B c i arg1 harg1 arg2 harg2 arg3 harg3 arg4 harg4 hc0 hc1 x0 x1 xs).1)

theorem scover4_C (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : cond4_1 i) (x0 : Vec F S10000x64 .bf16) (x1 : Vec F S10000x128 .f32) (xs : Vec F S64x128 .f32) (y : S64x128.Idx) :
    ∃ pc ∈ (kernelRun4_C c i arg1 harg1 arg2 harg2 arg3 harg3 arg4 harg4 hc0 hc1 x0 x1 xs).2.1, y ∈ pc.1.set :=
  View.cover_of_tiledL (kernelRun4_C c i arg1 harg1 arg2 harg2 arg3 harg3 arg4 harg4 hc0 hc1 x0 x1 xs).2.1 S64x128.size (by sl_kernel_rfl) y
theorem cover4_C (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : cond4_1 i) (x0 : Vec F S10000x64 .bf16) (x1 : Vec F S10000x128 .f32) (xs : Vec F S64x128 .f32) (y : S64x128.Idx) :
    ∃ pc ∈ (kernelRun4_C c i arg1 harg1 arg2 harg2 arg3 harg3 arg4 harg4 hc0 hc1 x0 x1 xs).1, y ∈ pc.1.set :=
  View.cover_of_tiledL (kernelRun4_C c i arg1 harg1 arg2 harg2 arg3 harg3 arg4 harg4 hc0 hc1 x0 x1 xs).1 S64x128.size (by sl_kernel_rfl) y
/-- What the last point leaves in the accumulator, and in the output's buffer. -/
def sout4_C (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : cond4_1 i) (x0 : Vec F S10000x64 .bf16) (x1 : Vec F S10000x128 .f32) (xs : Vec F S64x128 .f32) : Vec F S64x128 .f32 :=
  VS4.read (Elt F) (VS4.writes (Elt F) VS4.junk (kernelRun4_C c i arg1 harg1 arg2 harg2 arg3 harg3 arg4 harg4 hc0 hc1 x0 x1 xs).2.1)
def out4_C (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : cond4_1 i) (x0 : Vec F S10000x64 .bf16) (x1 : Vec F S10000x128 .f32) (xs : Vec F S64x128 .f32) : Vec F S64x128 .f32 :=
  VO4.read (Elt F) (VO4.writes (Elt F) VO4.junk (kernelRun4_C c i arg1 harg1 arg2 harg2 arg3 harg3 arg4 harg4 hc0 hc1 x0 x1 xs).1)

/-! ## Point by point -/

/-- THE ACCUMULATION: what the output's staging buffer (first component) and the accumulator (second) hold after the
    body at point `n`: the first point's case at 0; afterwards the last point's case at 9 and the middle case elsewhere,
    each over what point `n - 1` left in the accumulator. -/
def outsAt4 (c : Dev nD) : (n : ℕ) → n < cfg4.N → Vec F S64x128 .f32 × Vec F S64x128 .f32
  | 0, hn =>
    (out4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _) ((hcond4_0 ⟨0, hn⟩).mpr rfl) (fun h => absurd ((hcond4_1 ⟨0, hn⟩).mp h) (by show ¬ (0 = 9); decide)) (iblk4 V c 0 ⟨0, hn⟩) (iblk4 V c 1 ⟨0, hn⟩),
     sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _) ((hcond4_0 ⟨0, hn⟩).mpr rfl) (fun h => absurd ((hcond4_1 ⟨0, hn⟩).mp h) (by show ¬ (0 = 9); decide)) (iblk4 V c 0 ⟨0, hn⟩) (iblk4 V c 1 ⟨0, hn⟩))
  | n + 1, hn =>
    if h9 : n + 1 = 9 then
      (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) ((hcond4_1 ⟨n + 1, hn⟩).mpr h9) (iblk4 V c 0 ⟨n + 1, hn⟩) (iblk4 V c 1 ⟨n + 1, hn⟩) (outsAt4 c n (Nat.lt_of_succ_lt hn)).2,
       sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) ((hcond4_1 ⟨n + 1, hn⟩).mpr h9) (iblk4 V c 0 ⟨n + 1, hn⟩) (iblk4 V c 1 ⟨n + 1, hn⟩) (outsAt4 c n (Nat.lt_of_succ_lt hn)).2)
    else
      (out4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) (fun h => h9 ((hcond4_1 ⟨n + 1, hn⟩).mp h)) (iblk4 V c 0 ⟨n + 1, hn⟩) (iblk4 V c 1 ⟨n + 1, hn⟩) (outsAt4 c n (Nat.lt_of_succ_lt hn)).2,
       sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) (fun h => h9 ((hcond4_1 ⟨n + 1, hn⟩).mp h)) (iblk4 V c 0 ⟨n + 1, hn⟩) (iblk4 V c 1 ⟨n + 1, hn⟩) (outsAt4 c n (Nat.lt_of_succ_lt hn)).2)

/-- At the first point. -/
theorem outsAt4_A (c : Dev nD) (t : Fin cfg4.N) (h0 : t.val = 0) (h9 : ¬t.val = 9) :
    outsAt4 V c t.val t.isLt =
      (out4_A c (grid4.coords t) (ms4_0 t) (hs4_0 t) (ms4_1 t) (hs4_1 t) (ms4_2 t) (hs4_2 t) scM4 (Memref.isWhole_whole _) ((hcond4_0 t).mpr h0) (fun h => h9 ((hcond4_1 t).mp h)) (iblk4 V c 0 t) (iblk4 V c 1 t),
       sout4_A c (grid4.coords t) (ms4_0 t) (hs4_0 t) (ms4_1 t) (hs4_1 t) (ms4_2 t) (hs4_2 t) scM4 (Memref.isWhole_whole _) ((hcond4_0 t).mpr h0) (fun h => h9 ((hcond4_1 t).mp h)) (iblk4 V c 0 t) (iblk4 V c 1 t)) := by
  obtain ⟨n, hn⟩ := t
  cases n with
  | zero => exact rfl
  | succ n => exact absurd h0 (Nat.succ_ne_zero n)

/-- At a middle point: over what the point before left. -/
theorem outsAt4_B (c : Dev nD) (t : Fin cfg4.N) (h0 : ¬t.val = 0) (h9 : ¬t.val = 9) :
    outsAt4 V c t.val t.isLt =
      (out4_B c (grid4.coords t) (ms4_0 t) (hs4_0 t) (ms4_1 t) (hs4_1 t) (ms4_2 t) (hs4_2 t) scM4 (Memref.isWhole_whole _) (fun h => h0 ((hcond4_0 t).mp h)) (fun h => h9 ((hcond4_1 t).mp h)) (iblk4 V c 0 t) (iblk4 V c 1 t) (outsAt4 V c (t.val - 1) (Nat.lt_of_le_of_lt (Nat.sub_le _ _) t.isLt)).2,
       sout4_B c (grid4.coords t) (ms4_0 t) (hs4_0 t) (ms4_1 t) (hs4_1 t) (ms4_2 t) (hs4_2 t) scM4 (Memref.isWhole_whole _) (fun h => h0 ((hcond4_0 t).mp h)) (fun h => h9 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact absurd rfl h0
  | succ n => exact (dif_neg h9).trans rfl

/-- At the last point: over what the point before left. -/
theorem outsAt4_C (c : Dev nD) (t : Fin cfg4.N) (h0 : ¬t.val = 0) (h9 : t.val = 9) :
    outsAt4 V c t.val t.isLt =
      (out4_C c (grid4.coords t) (ms4_0 t) (hs4_0 t) (ms4_1 t) (hs4_1 t) (ms4_2 t) (hs4_2 t) scM4 (Memref.isWhole_whole _) (fun h => h0 ((hcond4_0 t).mp h)) ((hcond4_1 t).mpr h9) (iblk4 V c 0 t) (iblk4 V c 1 t) (outsAt4 V c (t.val - 1) (Nat.lt_of_le_of_lt (Nat.sub_le _ _) t.isLt)).2,
       sout4_C c (grid4.coords t) (ms4_0 t) (hs4_0 t) (ms4_1 t) (hs4_1 t) (ms4_2 t) (hs4_2 t) scM4 (Memref.isWhole_whole _) (fun h => h0 ((hcond4_0 t).mp h)) ((hcond4_1 t).mpr h9) (iblk4 V c 0 t) (iblk4 V c 1 t) (outsAt4 V c (t.val - 1) (Nat.lt_of_le_of_lt (Nat.sub_le _ _) t.isLt)).2) := by
  obtain ⟨n, hn⟩ := t
  cases n with
  | zero => exact absurd rfl h0
  | succ n => exact (dif_pos h9).trans rfl

/-! ## The invariant -/

/-- Before point `n`: before the first point the plain invariant (the accumulator at anything); afterwards the
    accumulator at what point `n - 1` left, every other scoped buffer at anything, the generator register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ rest4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ rest4 c) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; the
    invariant hands the body the accumulator at what the point before left (at anything at the first point) and takes it
    back at this point's contents; where the output is idle its buffer is handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  have hN : t.val < 10 := lt_of_lt_of_eq t.isLt (show cfg4.N = 10 from N_4)
  by_cases h0 : t.val = 0
  · have h9 : ¬t.val = 9 := by omega
    have hc1 : ¬cond4_1 (grid4.coords t) := fun h => h9 ((hcond4_1 t).mp h)
    rw [Dat.leavesExact_idle (dat4 V c) 2 t (idleAt4_2 t hc1) (noFlush4_2 t hc1)]
    rw [outsAt4_A V c t h0 h9]
    unfold sout4_A; (try dsimp only)
    rw [PhiS4_castSucc V c t, PhiS4_zero V c _ _ h0, PhiA4_eq]
    iintro ⟨⟨⟨HS0, Hrest⟩, Hg⟩, Ho, ⟨%d0, H0⟩, ⟨%d1, H1⟩, ⟨%d2, H2⟩⟩
    iapply ((kernelRun4_A c (grid4.coords t) _ _ _ _ _ _ _ _ ((hcond4_0 t).mpr h0) hc1 (iblk4 V c 0 t) (iblk4 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover4_A c _ _ _ _ _ _ _ _ _ _ _ _ _)
        iexact Hrest
      iexact Hg
    isplitl [Ho]; · iexact Ho
    isplitl [H0]; · iexact H0
    isplitl [H1]; · iexact H1
    iexists _; iexact H2
  · have hc0 : ¬cond4_0 (grid4.coords t) := fun h => h0 ((hcond4_0 t).mp h)
    by_cases h9 : t.val = 9
    · have hc1 : cond4_1 (grid4.coords t) := (hcond4_1 t).mpr h9
      rw [show (dat4 V c).leavesExact 2 t = owns (c : Thread nD τ) (ms4_2 t) fullShare ((dat4 V c).after 2 t) from by
          unfold Dat.leavesExact; rw [liveAt4_2 t hc1], after4_2]
      rw [outsAt4_C V c t h0 h9]
      unfold out4_C sout4_C; (try dsimp only)
      rw [PhiS4_castSucc V c t, PhiS4_pos V c _ _ h0]
      iintro ⟨⟨⟨HS0, Hrest⟩, Hg⟩, Ho, ⟨%d0, H0⟩, ⟨%d1, H1⟩, ⟨%d2, H2⟩⟩
      iapply ((kernelRun4_C c (grid4.coords t) _ _ _ _ _ _ _ _ hc0 hc1 (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C c _ _ _ _ _ _ _ _ _ _ _ _ _ _)
    · have hc1 : ¬cond4_1 (grid4.coords t) := fun h => h9 ((hcond4_1 t).mp h)
      rw [Dat.leavesExact_idle (dat4 V c) 2 t (idleAt4_2 t hc1) (noFlush4_2 t hc1)]
      rw [outsAt4_B V c t h0 h9]
      unfold sout4_B; (try dsimp only)
      rw [PhiS4_castSucc V c t, PhiS4_pos V c _ _ h0]
      iintro ⟨⟨⟨HS0, Hrest⟩, Hg⟩, Ho, ⟨%d0, H0⟩, ⟨%d1, H1⟩, ⟨%d2, H2⟩⟩
      iapply ((kernelRun4_B c (grid4.coords t) _ _ _ _ _ _ _ _ hc0 hc1 (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- The plain invariant is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the plain one back: what the accumulator holds is forgotten. -/
theorem hout4 (c : Dev nD) : (dat4 V c).Φ (Fin.last cfg4.N) ⊢ Pipeline.ΦA spec4 c := by
  have hne : (Fin.last cfg4.N).val ≠ 0 := by rw [Fin.val_last]; have : cfg4.N = 10 := N_4; omega
  rw [show (dat4 V c).Φ (Fin.last cfg4.N) = PhiS4 V c (Fin.last cfg4.N).val (Nat.le_of_lt_succ (Fin.last cfg4.N).isLt) from rfl,
    PhiS4_pos V c _ _ hne, PhiA4_eq]
  iintro ⟨⟨HS0, Hrest⟩, Hg⟩
  isplitl [HS0 Hrest]
  · isplitl [HS0]
    · iexists _; iexact HS0
    iexact Hrest
  iexact Hg

end Cert.KernelIdeal.Reg

end
-- ==== Proof.KI.Run.lean ====
/-
  The run of the whole program: @main's twelve items — seven stretches of host operations and the five regions — from
  the launch to the return, with every unscoped buffer's final contents named.

  Between two items a core holds every unscoped buffer whole at a known valuation: the launch contents, then after
  each host stretch its operations applied, then after each region its output array at what the pipeline's write-backs
  leave and everything else as the region found it. Each region enters from that state, splits its three arrays out,
  runs its pipeline under its own invariant and puts the arrays back. Beside the buffers only the generator register
  rides along, and nothing is ever owed. The conclusion: every weakly fair execution terminates, and at the end every
  unscoped buffer holds the last valuation — from which both the frame claim (no item writes an argument) and the
  result's value are read.
-/
import proofs.«414571_j14362370638253_1_alg».proof.Proof.KI.RegA0
import proofs.«414571_j14362370638253_1_alg».proof.Proof.KI.RegA1
import proofs.«414571_j14362370638253_1_alg».proof.Proof.KI.RegA2
import proofs.«414571_j14362370638253_1_alg».proof.Proof.KI.RegA3
import proofs.«414571_j14362370638253_1_alg».proof.Proof.KI.RegR4
import proofs.«414571_j14362370638253_1_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves, stage by stage -/

/-- Region 0's arrays at what its pipeline leaves, every other buffer as the region found it. -/
def o4 (c : Dev nD) (r : Ref sig .tc) : Buf (Elt F) ((c : Thread nD τ).loc r) :=
  Pipeline.withArrays spec0 c (V3 m c) (fun w => (dat0 (fun c b => V3 m c b) c).arrAt w cfg0.N) r
abbrev U4 (c : Dev nD) : Valuation τ sig (Elt F) := Function.update (V3 m c) main_v32 (o4 m c main_v32)
abbrev U5 (c : Dev nD) : Valuation τ sig (Elt F) := StableHlo.after hostOps1 (U4 m c)
def o6 (c : Dev nD) (r : Ref sig .tc) : Buf (Elt F) ((c : Thread nD τ).loc r) :=
  Pipeline.withArrays spec1 c (U5 m c) (fun w => (dat1 (fun c b => U5 m c b) c).arrAt w cfg1.N) r
abbrev U6 (c : Dev nD) : Valuation τ sig (Elt F) := Function.update (U5 m c) main_v47 (o6 m c main_v47)
def o7 (c : Dev nD) (r : Ref sig .tc) : Buf (Elt F) ((c : Thread nD τ).loc r) :=
  Pipeline.withArrays spec2 c (U6 m c) (fun w => (dat2 (fun c b => U6 m c b) c).arrAt w cfg2.N) r
abbrev U7 (c : Dev nD) : Valuation τ sig (Elt F) := Function.update (U6 m c) main_v48 (o7 m c main_v48)
abbrev U8 (c : Dev nD) : Valuation τ sig (Elt F) := StableHlo.after hostOps3 (U7 m c)
def o9 (c : Dev nD) (r : Ref sig .tc) : Buf (Elt F) ((c : Thread nD τ).loc r) :=
  Pipeline.withArrays spec3 c (U8 m c) (fun w => (dat3 (fun c b => U8 m c b) c).arrAt w cfg3.N) r
abbrev U9 (c : Dev nD) : Valuation τ sig (Elt F) := Function.update (U8 m c) main_v63 (o9 m c main_v63)
abbrev U10 (c : Dev nD) : Valuation τ sig (Elt F) := StableHlo.after hostOps4 (U9 m c)
def o11 (c : Dev nD) (r : Ref sig .tc) : Buf (Elt F) ((c : Thread nD τ).loc r) :=
  Pipeline.withArrays spec4 c (U10 m c) (fun w => (dat4 (fun c b => U10 m c b) c).arrAt w cfg4.N) r
abbrev U11 (c : Dev nD) : Valuation τ sig (Elt F) := Function.update (U10 m c) main_v71 (o11 m c main_v71)

/-- What the five regions leave in the buffers they may change, as the generated valuations take it. -/
def outs : Outs (F := F) := fun J r c =>
  match J with
  | 4 => o4 m c r
  | 6 => o6 m c r
  | 7 => o7 m c r
  | 9 => o9 m c r
  | _ => o11 m c r

/-- The generated valuations at these contents are the stage-by-stage ones. -/
theorem V4_eq (c : Dev nD) : V4 m (outs m) c = U4 m c := rfl
theorem V5_eq (c : Dev nD) : V5 m (outs m) c = U5 m c := rfl
theorem V6_eq (c : Dev nD) : V6 m (outs m) c = U6 m c := rfl
theorem V7_eq (c : Dev nD) : V7 m (outs m) c = U7 m c := rfl
theorem V8_eq (c : Dev nD) : V8 m (outs m) c = U8 m c := rfl
theorem V9_eq (c : Dev nD) : V9 m (outs m) c = U9 m c := rfl
theorem V10_eq (c : Dev nD) : V10 m (outs m) c = U10 m c := rfl
theorem V11_eq (c : Dev nD) : V11 m (outs m) c = U11 m c := rfl

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (fun c b => V3 m c b) c
  | ⟨1, _⟩ => fun c => dat1 (fun c b => U5 m c b) c
  | ⟨2, _⟩ => fun c => dat2 (fun c b => U6 m c b) c
  | ⟨3, _⟩ => fun c => dat3 (fun c b => U8 m c b) c
  | ⟨4, _⟩ => fun c => dat4 (fun c b => U10 m c b) c

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The regions' exits -/

set_option maxHeartbeats 2000000 in
/-- At region 0's exit each of its arrays holds what the pipeline leaves (an input array what it held, the output array
    its write-backs folded), and every other buffer what it held at entry. -/
theorem hF0 (c : Dev nD) (w : Fin cfg0.W) :
    (pdats m 0 c).arrAt w cfg0.N = U4 m c (Pipeline.arrRef spec0 w) := by
  match w with
  | ⟨0, _⟩ =>
    refine ((pdats m 0 c).arrAt_in 0 rfl _).trans ?_
    show V3 m c main_arg0 = U4 m c main_arg0
    exact (Function.update_of_ne (StableHlo.devRef_ne_of_ne (by decide) : (Proc.devRef .tc main_arg0 : DevRef τ sig) ≠ Proc.devRef .tc main_v32) _ _).symm
  | ⟨1, _⟩ =>
    refine ((pdats m 0 c).arrAt_in 1 rfl _).trans ?_
    show V3 m c main_arg3 = U4 m c main_arg3
    exact (Function.update_of_ne (StableHlo.devRef_ne_of_ne (by decide) : (Proc.devRef .tc main_arg3 : DevRef τ sig) ≠ Proc.devRef .tc main_v32) _ _).symm
  | ⟨2, _⟩ =>
    show _ = U4 m c main_v32
    rw [show U4 m c main_v32 = o4 m c main_v32 from Function.update_self _ _ _]
    unfold o4
    show (dat0 (fun c b => V3 m c b) c).arrAt 2 cfg0.N = _
    exact (Pipeline.withArrays_arr spec0 launch0.win.arr_inj c (V3 m c) (fun w => (dat0 (fun c b => V3 m c b) c).arrAt w cfg0.N) 2).symm
theorem hrest0 (c : Dev nD) : ∀ b : Ref sig .tc, b ∉ Finset.univ.image (Pipeline.arrRef spec0) → U4 m c b = V3 m c b := fun b hb =>
  Function.update_of_ne (StableHlo.devRef_ne_of_ne (fun e => hb (Finset.mem_image.mpr ⟨2, Finset.mem_univ _, e.symm⟩))) _ _

set_option maxHeartbeats 2000000 in
/-- At region 1's exit each of its arrays holds what the pipeline leaves (an input array what it held, the output array
    its write-backs folded), and every other buffer what it held at entry. -/
theorem hF1 (c : Dev nD) (w : Fin cfg1.W) :
    (pdats m 1 c).arrAt w cfg1.N = U6 m c (Pipeline.arrRef spec1 w) := by
  match w with
  | ⟨0, _⟩ =>
    refine ((pdats m 1 c).arrAt_in 0 rfl _).trans ?_
    show U5 m c main_v45 = U6 m c main_v45
    exact (Function.update_of_ne (StableHlo.devRef_ne_of_ne (by decide) : (Proc.devRef .tc main_v45 : DevRef τ sig) ≠ Proc.devRef .tc main_v47) _ _).symm
  | ⟨1, _⟩ =>
    refine ((pdats m 1 c).arrAt_in 1 rfl _).trans ?_
    show U5 m c main_v46 = U6 m c main_v46
    exact (Function.update_of_ne (StableHlo.devRef_ne_of_ne (by decide) : (Proc.devRef .tc main_v46 : DevRef τ sig) ≠ Proc.devRef .tc main_v47) _ _).symm
  | ⟨2, _⟩ =>
    show _ = U6 m c main_v47
    rw [show U6 m c main_v47 = o6 m c main_v47 from Function.update_self _ _ _]
    unfold o6
    show (dat1 (fun c b => U5 m c b) c).arrAt 2 cfg1.N = _
    exact (Pipeline.withArrays_arr spec1 launch1.win.arr_inj c (U5 m c) (fun w => (dat1 (fun c b => U5 m c b) c).arrAt w cfg1.N) 2).symm
theorem hrest1 (c : Dev nD) : ∀ b : Ref sig .tc, b ∉ Finset.univ.image (Pipeline.arrRef spec1) → U6 m c b = U5 m c b := fun b hb =>
  Function.update_of_ne (StableHlo.devRef_ne_of_ne (fun e => hb (Finset.mem_image.mpr ⟨2, Finset.mem_univ _, e.symm⟩))) _ _

set_option maxHeartbeats 2000000 in
/-- At region 2's exit each of its arrays holds what the pipeline leaves (an input array what it held, the output array
    its write-backs folded), and every other buffer what it held at entry. -/
theorem hF2 (c : Dev nD) (w : Fin cfg2.W) :
    (pdats m 2 c).arrAt w cfg2.N = U7 m c (Pipeline.arrRef spec2 w) := by
  match w with
  | ⟨0, _⟩ =>
    refine ((pdats m 2 c).arrAt_in 0 rfl _).trans ?_
    show U6 m c main_v47 = U7 m c main_v47
    exact (Function.update_of_ne (StableHlo.devRef_ne_of_ne (by decide) : (Proc.devRef .tc main_v47 : DevRef τ sig) ≠ Proc.devRef .tc main_v48) _ _).symm
  | ⟨1, _⟩ =>
    refine ((pdats m 2 c).arrAt_in 1 rfl _).trans ?_
    show U6 m c main_arg5 = U7 m c main_arg5
    exact (Function.update_of_ne (StableHlo.devRef_ne_of_ne (by decide) : (Proc.devRef .tc main_arg5 : DevRef τ sig) ≠ Proc.devRef .tc main_v48) _ _).symm
  | ⟨2, _⟩ =>
    show _ = U7 m c main_v48
    rw [show U7 m c main_v48 = o7 m c main_v48 from Function.update_self _ _ _]
    unfold o7
    show (dat2 (fun c b => U6 m c b) c).arrAt 2 cfg2.N = _
    exact (Pipeline.withArrays_arr spec2 launch2.win.arr_inj c (U6 m c) (fun w => (dat2 (fun c b => U6 m c b) c).arrAt w cfg2.N) 2).symm
theorem hrest2 (c : Dev nD) : ∀ b : Ref sig .tc, b ∉ Finset.univ.image (Pipeline.arrRef spec2) → U7 m c b = U6 m c b := fun b hb =>
  Function.update_of_ne (StableHlo.devRef_ne_of_ne (fun e => hb (Finset.mem_image.mpr ⟨2, Finset.mem_univ _, e.symm⟩))) _ _

set_option maxHeartbeats 2000000 in
/-- At region 3's exit each of its arrays holds what the pipeline leaves (an input array what it held, the output array
    its write-backs folded), and every other buffer what it held at entry. -/
theorem hF3 (c : Dev nD) (w : Fin cfg3.W) :
    (pdats m 3 c).arrAt w cfg3.N = U9 m c (Pipeline.arrRef spec3 w) := by
  match w with
  | ⟨0, _⟩ =>
    refine ((pdats m 3 c).arrAt_in 0 rfl _).trans ?_
    show U8 m c main_v61 = U9 m c main_v61
    exact (Function.update_of_ne (StableHlo.devRef_ne_of_ne (by decide) : (Proc.devRef .tc main_v61 : DevRef τ sig) ≠ Proc.devRef .tc main_v63) _ _).symm
  | ⟨1, _⟩ =>
    refine ((pdats m 3 c).arrAt_in 1 rfl _).trans ?_
    show U8 m c main_v62 = U9 m c main_v62
    exact (Function.update_of_ne (StableHlo.devRef_ne_of_ne (by decide) : (Proc.devRef .tc main_v62 : DevRef τ sig) ≠ Proc.devRef .tc main_v63) _ _).symm
  | ⟨2, _⟩ =>
    show _ = U9 m c main_v63
    rw [show U9 m c main_v63 = o9 m c main_v63 from Function.update_self _ _ _]
    unfold o9
    show (dat3 (fun c b => U8 m c b) c).arrAt 2 cfg3.N = _
    exact (Pipeline.withArrays_arr spec3 launch3.win.arr_inj c (U8 m c) (fun w => (dat3 (fun c b => U8 m c b) c).arrAt w cfg3.N) 2).symm
theorem hrest3 (c : Dev nD) : ∀ b : Ref sig .tc, b ∉ Finset.univ.image (Pipeline.arrRef spec3) → U9 m c b = U8 m c b := fun b hb =>
  Function.update_of_ne (StableHlo.devRef_ne_of_ne (fun e => hb (Finset.mem_image.mpr ⟨2, Finset.mem_univ _, e.symm⟩))) _ _

set_option maxHeartbeats 2000000 in
/-- At region 4's exit each of its arrays holds what the pipeline leaves (an input array what it held, the output array
    its write-backs folded), and every other buffer what it held at entry. -/
theorem hF4 (c : Dev nD) (w : Fin cfg4.W) :
    (pdats m 4 c).arrAt w cfg4.N = U11 m c (Pipeline.arrRef spec4 w) := by
  match w with
  | ⟨0, _⟩ =>
    refine ((pdats m 4 c).arrAt_in 0 rfl _).trans ?_
    show U10 m c main_v70 = U11 m c main_v70
    exact (Function.update_of_ne (StableHlo.devRef_ne_of_ne (by decide) : (Proc.devRef .tc main_v70 : DevRef τ sig) ≠ Proc.devRef .tc main_v71) _ _).symm
  | ⟨1, _⟩ =>
    refine ((pdats m 4 c).arrAt_in 1 rfl _).trans ?_
    show U10 m c main_v63 = U11 m c main_v63
    exact (Function.update_of_ne (StableHlo.devRef_ne_of_ne (by decide) : (Proc.devRef .tc main_v63 : DevRef τ sig) ≠ Proc.devRef .tc main_v71) _ _).symm
  | ⟨2, _⟩ =>
    show _ = U11 m c main_v71
    rw [show U11 m c main_v71 = o11 m c main_v71 from Function.update_self _ _ _]
    unfold o11
    show (dat4 (fun c b => U10 m c b) c).arrAt 2 cfg4.N = _
    exact (Pipeline.withArrays_arr spec4 launch4.win.arr_inj c (U10 m c) (fun w => (dat4 (fun c b => U10 m c b) c).arrAt w cfg4.N) 2).symm
theorem hrest4 (c : Dev nD) : ∀ b : Ref sig .tc, b ∉ Finset.univ.image (Pipeline.arrRef spec4) → U11 m c b = U10 m c b := fun b hb =>
  Function.update_of_ne (StableHlo.devRef_ne_of_ne (fun e => hb (Finset.mem_image.mpr ⟨2, Finset.mem_univ _, e.symm⟩))) _ _

/-! ## The regions as segments -/

set_option backward.isDefEq.respectTransparency.types false in
/-- REGION 0 (the first layer's dense product) as a segment: entered from every unscoped buffer at its entry contents, left at its exit
    contents. Its arrays are split out of the unscoped buffers at entry and put back at what the pipeline leaves at exit;
    the generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the first layer's bias and rectifier) as a segment: entered from every unscoped buffer at its entry contents, left at its exit
    contents. Its arrays are split out of the unscoped buffers at entry and put back at what the pipeline leaves at exit;
    the generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => U5 m c b) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (fun b => U5 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => U5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => U5 m c b) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the second layer's dense product) as a segment: entered from every unscoped buffer at its entry contents, left at its exit
    contents. Its arrays are split out of the unscoped buffers at entry and put back at what the pipeline leaves at exit;
    the generator register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => U6 m c b) c).loose
  hwaits := Pipeline.hwaits_of_owed_zero _ _ _ _ L lv 2 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec2 c (fun b => U6 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => U6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => U6 m c b) (fun b => U7 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the second layer's bias and rectifier) as a segment: entered from every unscoped buffer at its entry contents, left at its exit
    contents. Its arrays are split out of the unscoped buffers at entry and put back at what the pipeline leaves at exit;
    the generator register goes into the invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => U8 m c b) c).loose
  hwaits := Pipeline.hwaits_of_owed_zero _ _ _ _ L lv 3 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec3 c (fun b => U8 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => U8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => U8 m c b) (fun b => U9 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (the pooling) as a segment: entered from every unscoped buffer at its entry contents, left at its exit
    contents. Its arrays are split out of the unscoped buffers at entry and put back at what the pipeline leaves at exit;
    the generator register goes into the invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => U10 m c b) c).loose
  hwaits := Pipeline.hwaits_of_owed_zero _ _ _ _ L lv 4 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec4 c (fun b => U10 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => U10 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec4 c : sProp 𝕄)).trans (hin4 (F := F) (fun c b => U10 m c b) c)
    unfold Pipeline.ΦA
    iintro ⟨Hp, -, Hr⟩
    isplitl [Hr]; · iexact Hr
    iexact Hp
  hout c := by
    rw [Pipeline.ownSems0_none]
    refine (hout4 (F := F) (fun c b => U10 m c b) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => U10 m c b) (fun b => U11 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
set_option maxHeartbeats 2000000 in
/-- THE RUN: from any memory with zero counters every weakly fair execution of @main terminates, and every final
    memory holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m))
    (fun c Q => by
      rewrite [main_chain c, Seg.run_eq_chain,
        show (segs m (outs m) 𝒱₀ L lv (fun _ c => R c) () (pdats m) (reg0 m) (reg1 m) (reg2 m) (reg3 m) (reg4 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V12 m (outs m) c))
    (hch := fun c => ⟨.rfl, .rfl, .rfl, .rfl, .rfl, .rfl, .rfl, .rfl, .rfl, .rfl, .rfl, .rfl,
      sep_mono .rfl (show (R c : sProp 𝕄) ⊢ iprop(∃ W, owes (c : Thread nD τ) (0 : CellTallies nD τ sig Unit) W) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outs m) c b)
    (hfin := fun c s' => by
      unfold StableHlo.held
      iintro ⟨Hh, HSI⟩
      imodintro
      iapply (pointsTo_read_all (Pipeline.ucRefs τ sig) (fun b => (((c : Thread nD τ)).1, b)) (V12 m (outs m) c) s')
      isplitl [Hh] <;> iassumption)
    (hQ := fun s h c => h c)

/-- The frame claim's post: each argument array ends as launched, no item writing one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c),
     (h c _ (mem_uc main_arg6 (by decide))).trans (V12_main_arg6 m (outs m) c),
     (h c _ (mem_uc main_arg7 (by decide))).trans (V12_main_arg7 m (outs m) c),
     (h c _ (mem_uc main_arg8 (by decide))).trans (V12_main_arg8 m (outs m) c)⟩) (run_all m ρ)

end Cert.KernelIdeal.Reg

end
-- ==== Proof.KI.PayVal.lean ====
/-
  The four pointwise and contracting payloads of the graph-convolution kernel, each read at one output index
  `(r, j)` of a block of 10000 rows and 128 columns, with every float an extended real.

  * A dense layer's payload is a matrix product accumulated into zero: its entry `(r, j)` is the sum over the
    128 inner positions `k` of `x (r, k) * w (k, j)`. Narrowing to a shorter float format is the identity on
    extended reals, and so is a reshape of a block to its own shape, so neither leaves a trace in the formula.
  * A bias-and-rectifier payload adds the single bias row to every row of the block and takes the maximum with
    zero: its entry `(r, j)` is `max (x (r, j) + b (0, j)) 0`.

  The only work is bookkeeping of indices: the contraction of the product runs over an index shape with one axis of
  extent 128, which is re-indexed by its one coordinate, and the operand indices the product forms from an output
  index and a contraction index are identified, axis by axis, with `(r, k)` on the left and `(k, j)` on the right.
-/
import proofs.«414571_j14362370638253_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.PayVal

open Cert.KernelIdeal Cert.KernelIdeal.Gen Idealize.ShloMosaic Idealize.ShloMosaic.ValueIdx

/-! ## The operand indices of the [10000,128] × [128,128] product -/

/-- Axis 0 of the left operand is a free axis of the product: the left index keeps the output row. -/
theorem left_index_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- Axis 1 of the left operand is the contracted axis: the left index takes the contraction coordinate there. -/
theorem left_index_inner (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- Axis 0 of the right operand is the contracted axis: the right index takes the contraction coordinate there. -/
theorem right_index_inner (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- Axis 1 of the right operand is a free axis of the product: the right index keeps the output column. -/
theorem right_index_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-! ## The product accumulated into zero, at an index -/

/-- The product of a [10000,128] block with a [128,128] matrix, accumulated into the zero block, has at `(r, j)`
    the entry `∑ k, a (r, k) * w (k, j)`, whatever the operands' float formats. -/
theorem product_into_zero_apply {φ₁ φ₂ : FTy} (a : FVec Ideal S10000x128 φ₁) (w : FVec Ideal S128x128 φ₂)
    (r : Fin 10000) (j : Fin 128) :
    matmul dot_S10000x128_S128x128_S10000x128_1_0_0_1_n_n none a w
        (constant (F := Ideal) S10000x128 .f32 0x00000000#32) (ix2 r j)
      = ∑ k : Fin 128, a (ix2 r k) * w (ix2 k j) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j)
      ((contrEquiv1 dot_S10000x128_S128x128_S10000x128_1_0_0_1_n_n 128 rfl rfl).symm k) = ix2 r k :=
    funext fun c => Fin.ext (by
      match c with
      | ⟨0, _⟩ => exact left_index_row _ _
      | ⟨1, _⟩ => exact (left_index_inner _ _).trans hk)
  have er : dot_S10000x128_S128x128_S10000x128_1_0_0_1_n_n.rhsIdx (ix2 r j)
      ((contrEquiv1 dot_S10000x128_S128x128_S10000x128_1_0_0_1_n_n 128 rfl rfl).symm k) = ix2 k j :=
    funext fun c => Fin.ext (by
      match c with
      | ⟨0, _⟩ => exact (right_index_inner _ _).trans hk
      | ⟨1, _⟩ => exact right_index_col _ _)
  rw [el, er]

/-! ## The two dense-layer payloads -/

/-- The first dense layer's payload at `(r, j)`: the row `r` of the block against the column `j` of the weights. -/
theorem k0_pay1_apply (x : Vec Ideal S10000x128 .f32) (w : Vec Ideal S128x128 .f32) (r : Fin 10000) (j : Fin 128) :
    k0_pay1 (F := Ideal) x w (ix2 r j) = ∑ k : Fin 128, x (ix2 r k) * w (ix2 k j) := by
  unfold k0_pay1
  exact product_into_zero_apply _ _ r j

/-- The second dense layer's payload at `(r, j)`: the same sum; the reshape of the block to its own shape that
    precedes the product changes no entry. -/
theorem k2_pay1_apply (x : Vec Ideal S10000x128 .f32) (w : Vec Ideal S128x128 .f32) (r : Fin 10000) (j : Fin 128) :
    k2_pay1 (F := Ideal) x w (ix2 r j) = ∑ k : Fin 128, x (ix2 r k) * w (ix2 k j) := by
  unfold k2_pay1
  rw [shapeCast_self]
  exact product_into_zero_apply _ _ r j

/-! ## The two bias-and-rectifier payloads -/

/-- A block plus the one bias row broadcast over its rows, then the maximum with the zero splat, at `(r, j)`. -/
theorem bias_rectifier_apply (x : Vec Ideal S10000x128 .f32) (b : Vec Ideal S1x128 .f32) (r : Fin 10000) (j : Fin 128) :
    maximumf
        (addf (shapeCast S10000x128 x shapeCasts_S10000x128_S10000x128)
          (broadcastTo S10000x128 (shapeCast S1x128 b shapeCasts_S1x128_S1x128) broadcasts_S1x128_S10000x128))
        (broadcast S10000x128 (Scalar.ofBits (F := Ideal) .f32 0x00000000#32)) (ix2 r j)
      = max (x (ix2 r j) + b (ix2 (0 : Fin 1) j)) 0 := by
  rw [maximumf_apply, addf_apply, broadcast_apply, shapeCast_self, shapeCast_self, broadcastTo_1b_ab_apply]
  exact congrArg (max _) Ideal.ofBits_zero_f32

/-- The first bias-and-rectifier payload at `(r, j)`. -/
theorem k1_pay1_apply (x : Vec Ideal S10000x128 .f32) (b : Vec Ideal S1x128 .f32) (r : Fin 10000) (j : Fin 128) :
    k1_pay1 (F := Ideal) x b (ix2 r j) = max (x (ix2 r j) + b (ix2 (0 : Fin 1) j)) 0 := by
  unfold k1_pay1
  exact bias_rectifier_apply x b r j

/-- The second bias-and-rectifier payload at `(r, j)`: the same expression. -/
theorem k3_pay1_apply (x : Vec Ideal S10000x128 .f32) (b : Vec Ideal S1x128 .f32) (r : Fin 10000) (j : Fin 128) :
    k3_pay1 (F := Ideal) x b (ix2 r j) = max (x (ix2 r j) + b (ix2 (0 : Fin 1) j)) 0 := by
  unfold k3_pay1
  exact bias_rectifier_apply x b r j

end Cert.KernelIdeal.PayVal
-- ==== Proof.KI.ArrA0.lean ====
/-
  The first dense layer's output array after all ten grid points, entry by entry, with every float an extended real.

  The region's ten points each take one block of 10000 consecutive rows of the node features, the point's number
  saying which, and the whole 128 x 128 weight matrix, and write the block's product with the weights back over the
  same rows of the output. The row blocks of the ten points tile the 100000 rows: row `p` belongs to point
  `p / 10000` and is row `p % 10000` of that point's block. Entry `(r, j)` of a block's product is the sum over the
  128 inner positions `k` of the block's `(r, k)` times the weights' `(k, j)`, and the block's row `r` is the array's
  row `10000 * t + r`. So what a point writes back is its own block of ONE function of the two arrays the region
  found, the full product of features and weights, and since every entry of the output lies in some point's block, the
  output ends holding that function: entry `(p, q)` is the sum over `k` of features `(p, k)` times weights `(k, q)`.
-/
import proofs.«414571_j14362370638253_1_alg».proof.Proof.KI.RegA0
import proofs.«414571_j14362370638253_1_alg».proof.Proof.KI.PayVal
import Idealize.ShloMosaic.Lib.ValueIdx
import Idealize.ShloMosaic.Lib.Pipeline.Value
import Idealize.ShloMosaic.PureOps.Ideal

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The node features and the first layer's weights as the region finds them, at their literal shapes. -/
abbrev features0 (c : Dev nD) : Vec Ideal S100000x128 .f32 := V c main_arg0
abbrev weights0 (c : Dev nD) : Vec Ideal S128x128 .f32 := V c main_arg3

/-- A rectangle that starts at row 0, column 0 starts at the origin. -/
theorem origin0 : (![0, 0] : Fin 2 → Nat) = fun _ => 0 := funext fun a => by fin_cases a <;> rfl

/-- The product of a [100000,128] array with a [128,128] matrix, entry by entry: row `p` of the array against
    column `q` of the matrix. -/
def dense0 (x : Vec Ideal S100000x128 .f32) (w : Vec Ideal S128x128 .f32) : Vec Ideal S100000x128 .f32 :=
  fun i => ∑ k : Fin 128, x (ix2 (i 0 : Fin 100000) k) * w (ix2 k (i 1 : Fin 128))

theorem dense0_apply (x : Vec Ideal S100000x128 .f32) (w : Vec Ideal S128x128 .f32) (p : Fin 100000) (q : Fin 128) :
    dense0 x w (ix2 p q) = ∑ k : Fin 128, x (ix2 p k) * w (ix2 k q) := rfl

/-- Where the three windows' blocks sit at point `t`: the row blocks of the features and of the output are block
    `t` down the rows, the weights' one block is at the origin, and no window moves along the columns. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the features' block at point `t` is row `10000 * t + r` of the features. -/
theorem feature_block_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = features0 V c i := by
  obtain ⟨e0, e1, -⟩ := block_indices0 t
  unfold iblk0
  show V c main_arg0 (((cfg0.win 0).blk t).view.emb y) = V c main_arg0 i
  congr 1
  funext a
  apply Fin.ext
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The weights' block at any point is the whole weight matrix. -/
theorem weight_block_apply (c : Dev nD) (t : Fin cfg0.N) (y : S128x128.Idx) :
    (iblk0 V c 1 t : Vec Ideal S128x128 .f32) y = weights0 V c y := by
  obtain ⟨-, -, e0, e1, -⟩ := block_indices0 t
  unfold iblk0
  show V c main_arg3 (((cfg0.win 1).blk t).view.emb y) = V c main_arg3 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- One entry of a block's product with the weights, when the block is a run of rows of a larger array: it is
    the larger array's product at the row the block's row sits at. -/
theorem block_product_entry (x0 : Vec Ideal S10000x128 .f32) (x1 : Vec Ideal S128x128 .f32)
    (x : Vec Ideal S100000x128 .f32) (w : Vec Ideal S128x128 .f32) (r : Fin 10000) (p : Fin 100000) (q : Fin 128)
    (hx : ∀ k : Fin 128, x0 (ix2 r k) = x (ix2 p k)) (hw : ∀ y : S128x128.Idx, x1 y = w y) :
    k0_pay1 (F := Ideal) x0 x1 (ix2 r q) = dense0 x w (ix2 p q) := by
  rw [PayVal.k0_pay1_apply, dense0_apply]
  refine Finset.sum_congr rfl fun k _ => ?_
  rw [hx k, hw (ix2 k q)]

/-- What point `t` writes back is its block of the full product of the features and the weights. -/
theorem flushed0_eq (c : Dev nD) (t : Fin cfg0.N) :
    (dat0 (F := Ideal) V c).flushed 2 t
      = ((cfg0.win 2).blk t).view.read (Elt Ideal) (dense0 (features0 V c) (weights0 V c)) := by
  show (cfg0.win 2).cut (grid0.coords t) ((dat0 V c).after 2 t) = _
  rw [after0_2]
  unfold out0_2
  rw [View.canon_unit_zero origin0]
  simp only [View.ld_unit_zero (S := S10000x128) origin0, View.ld_unit_zero (S := S128x128) origin0]
  obtain ⟨-, -, -, -, e0, e1⟩ := block_indices0 t
  have ht : t.val < 10 := lt_of_lt_of_eq t.isLt N_0
  funext j
  obtain ⟨r, q, rfl⟩ : ∃ (r : Fin 10000) (q : Fin 128), j = ix2 r q := ⟨j 0, j 1, eq_ix2 j⟩
  show k0_pay1 (F := Ideal) (iblk0 V c 0 t) (iblk0 V c 1 t) (ix2 r q)
    = dense0 (features0 V c) (weights0 V c) (((cfg0.win 2).blk t).view.emb (ix2 r q))
  have hi : ((cfg0.win 2).blk t).view.emb (ix2 r q)
      = ix2 (⟨t.val * 10000 + r.val, by have := r.isLt; omega⟩ : Fin 100000) q := by
    funext a
    apply Fin.ext
    match a with
    | ⟨0, _⟩ => show win0_2.index t (0 : Fin 2) * 10000 + 1 * r.val = t.val * 10000 + r.val; omega
    | ⟨1, _⟩ => show win0_2.index t (1 : Fin 2) * 128 + 1 * q.val = q.val; omega
  rw [hi]
  exact block_product_entry (iblk0 V c 0 t) (iblk0 V c 1 t) (features0 V c) (weights0 V c) _ _ _
    (fun k => feature_block_apply V c t _ _ rfl rfl) (fun y => weight_block_apply V c t y)

/-- An entry of the output lies in point `t`'s block exactly when, on each axis, its coordinate is in the block's
    range there. -/
theorem mem_block0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- The ten row blocks tile the output: the entry in row `p` lies in the block of point `p / 10000`. -/
theorem covered0 (i : S100000x128.Idx) :
    ∃ t : Fin cfg0.N, (cfg0.win 2).flush t = true ∧ i ∈ ((cfg0.win 2).blk t).view.set := by
  have hp : (i 0).val < 100000 := (i 0).isLt
  have hq : (i 1).val < 128 := (i 1).isLt
  have hlt : (i 0).val / 10000 < cfg0.N := lt_of_lt_of_eq (show (i 0).val / 10000 < 10 by omega) N_0.symm
  obtain ⟨-, -, -, -, e0, e1⟩ := block_indices0 ⟨(i 0).val / 10000, hlt⟩
  refine ⟨⟨(i 0).val / 10000, hlt⟩, flush0_2 _, ?_⟩
  rw [mem_block0]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_2.index ⟨(i 0).val / 10000, hlt⟩ (1 : Fin 2) * 128 ≤ (i 1).val
      ∧ (i 1).val < win0_2.index ⟨(i 0).val / 10000, hlt⟩ (1 : Fin 2) * 128 + 128
    rw [e1]; omega

/-- The output array after all ten points is the full product of the features and the weights. -/
theorem array0_eq (c : Dev nD) :
    (dat0 (F := Ideal) V c).arrAt 2 cfg0.N = dense0 (features0 V c) (weights0 V c) :=
  (dat0 (F := Ideal) V c).arrAt_eq_of_cover 2 (dense0 (features0 V c) (weights0 V c))
    (fun t _ => flushed0_eq V c t) covered0

/-- Entry `(p, q)` of the output array after all ten points: the sum over the 128 inner positions `k` of the
    features' `(p, k)` times the weights' `(k, q)`. -/
theorem final0 (c : Dev nD) (p : Fin 100000) (q : Fin 128) :
    (dat0 (F := Ideal) V c).arrAt 2 cfg0.N (ix2 p q)
      = ∑ k : Fin 128, features0 V c (ix2 p k) * weights0 V c (ix2 k q) :=
  (congrFun (array0_eq V c) (ix2 p q)).trans (dense0_apply _ _ p q)

end Cert.KernelIdeal.Reg

end
-- ==== Proof.KI.ArrA1.lean ====
/-
  The first layer's bias-and-rectifier output array after all ten grid points, entry by entry, with every float an
  extended real.

  The region's ten points each take one block of 10000 consecutive rows of the layer's input, the point's number
  saying which, and the single bias row, and write back over the same rows of the output the block with the bias
  added to every row and the maximum with zero taken. The row blocks of the ten points tile the 100000 rows: row `p`
  belongs to point `p / 10000` and is row `p % 10000` of that point's block. Entry `(r, j)` of what a point computes is
  `max (block (r, j) + bias (0, j)) 0`, and the block's row `r` is the array's row `10000 * t + r`. So what a point
  writes back is its own block of ONE function of the two arrays the region found, and since every entry of the output
  lies in some point's block, the output ends holding that function: entry `(p, q)` is
  `max (input (p, q) + bias (0, q)) 0`.
-/
import proofs.«414571_j14362370638253_1_alg».proof.Proof.KI.RegA1
import proofs.«414571_j14362370638253_1_alg».proof.Proof.KI.PayVal
import Idealize.ShloMosaic.Lib.ValueIdx
import Idealize.ShloMosaic.Lib.Pipeline.Value
import Idealize.ShloMosaic.PureOps.Ideal

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer's input and its bias row as the region finds them, at their literal shapes. -/
abbrev input1 (c : Dev nD) : Vec Ideal S100000x128 .f32 := V c main_v45
abbrev bias1 (c : Dev nD) : Vec Ideal S1x128 .f32 := V c main_v46

/-- A rectangle that starts at row 0, column 0 starts at the origin. -/
theorem origin1 : (![0, 0] : Fin 2 → Nat) = fun _ => 0 := funext fun a => by fin_cases a <;> rfl

/-- A [100000,128] array with a bias row added to every row and the maximum with zero taken, entry by entry. -/
def rectified1 (x : Vec Ideal S100000x128 .f32) (b : Vec Ideal S1x128 .f32) : Vec Ideal S100000x128 .f32 :=
  fun i => max (x (ix2 (i 0 : Fin 100000) (i 1 : Fin 128)) + b (ix2 (0 : Fin 1) (i 1 : Fin 128))) 0

theorem rectified1_apply (x : Vec Ideal S100000x128 .f32) (b : Vec Ideal S1x128 .f32) (p : Fin 100000) (q : Fin 128) :
    rectified1 x b (ix2 p q) = max (x (ix2 p q) + b (ix2 (0 : Fin 1) q)) 0 := rfl

/-- Where the three windows' blocks sit at point `t`: the row blocks of the input and of the output are block `t`
    down the rows, the bias row's one block is at the origin, and no window moves along the columns. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the input's block at point `t` is row `10000 * t + r` of the input. -/
theorem input_block_apply (c : Dev nD) (t : Fin cfg1.N) (y : S10000x128.Idx) (i : S100000x128.Idx)
    (h0 : (i 0).val = t.val * 10000 + (y 0).val) (h1 : (i 1).val = (y 1).val) :
    (iblk1 V c 0 t : Vec Ideal S10000x128 .f32) y = input1 V c i := by
  obtain ⟨e0, e1, -⟩ := block_indices1 t
  unfold iblk1
  show V c main_v45 (((cfg1.win 0).blk t).view.emb y) = V c main_v45 i
  congr 1
  funext a
  apply Fin.ext
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- The bias row's block at any point is the whole bias row. -/
theorem bias_block_apply (c : Dev nD) (t : Fin cfg1.N) (y : S1x128.Idx) :
    (iblk1 V c 1 t : Vec Ideal S1x128 .f32) y = bias1 V c y := by
  obtain ⟨-, -, e0, e1, -⟩ := block_indices1 t
  unfold iblk1
  show V c main_v46 (((cfg1.win 1).blk t).view.emb y) = V c main_v46 y
  congr 1
  funext a
  apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- One entry of a block with the bias added and rectified, when the block is a run of rows of a larger array: it
    is the larger array's rectified entry at the row the block's row sits at. -/
theorem block_rectified_entry (x0 : Vec Ideal S10000x128 .f32) (b0 : Vec Ideal S1x128 .f32)
    (x : Vec Ideal S100000x128 .f32) (b : Vec Ideal S1x128 .f32) (r : Fin 10000) (p : Fin 100000) (q : Fin 128)
    (hx : x0 (ix2 r q) = x (ix2 p q)) (hb : ∀ y : S1x128.Idx, b0 y = b y) :
    k1_pay1 (F := Ideal) x0 b0 (ix2 r q) = rectified1 x b (ix2 p q) := by
  rw [PayVal.k1_pay1_apply, rectified1_apply, hx, hb (ix2 (0 : Fin 1) q)]

/-- What point `t` writes back is its block of the whole input with the bias added and rectified. -/
theorem flushed1_eq (c : Dev nD) (t : Fin cfg1.N) :
    (dat1 (F := Ideal) V c).flushed 2 t
      = ((cfg1.win 2).blk t).view.read (Elt Ideal) (rectified1 (input1 V c) (bias1 V c)) := by
  show (cfg1.win 2).cut (grid1.coords t) ((dat1 V c).after 2 t) = _
  rw [after1_2]
  unfold out1_2
  rw [View.canon_unit_zero origin1]
  simp only [View.ld_unit_zero (S := S10000x128) origin1, View.ld_unit_zero (S := S1x128) origin1]
  obtain ⟨-, -, -, -, e0, e1⟩ := block_indices1 t
  have ht : t.val < 10 := lt_of_lt_of_eq t.isLt N_1
  funext j
  obtain ⟨r, q, rfl⟩ : ∃ (r : Fin 10000) (q : Fin 128), j = ix2 r q := ⟨j 0, j 1, eq_ix2 j⟩
  show k1_pay1 (F := Ideal) (iblk1 V c 0 t) (iblk1 V c 1 t) (ix2 r q)
    = rectified1 (input1 V c) (bias1 V c) (((cfg1.win 2).blk t).view.emb (ix2 r q))
  have hi : ((cfg1.win 2).blk t).view.emb (ix2 r q)
      = ix2 (⟨t.val * 10000 + r.val, by have := r.isLt; omega⟩ : Fin 100000) q := by
    funext a
    apply Fin.ext
    match a with
    | ⟨0, _⟩ => show win1_2.index t (0 : Fin 2) * 10000 + 1 * r.val = t.val * 10000 + r.val; omega
    | ⟨1, _⟩ => show win1_2.index t (1 : Fin 2) * 128 + 1 * q.val = q.val; omega
  rw [hi]
  exact block_rectified_entry (iblk1 V c 0 t) (iblk1 V c 1 t) (input1 V c) (bias1 V c) _ _ _
    (input_block_apply V c t _ _ rfl rfl) (fun y => bias_block_apply V c t y)

/-- An entry of the output lies in point `t`'s block exactly when, on each axis, its coordinate is in the block's
    range there. -/
theorem mem_block1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v47).slice (win1_2.rect t)).set ↔ _
  rw [View.set_slice_whole, Rect.mem_set_unit]
  exact Iff.rfl

/-- The ten row blocks tile the output: the entry in row `p` lies in the block of point `p / 10000`. -/
theorem covered1 (i : S100000x128.Idx) :
    ∃ t : Fin cfg1.N, (cfg1.win 2).flush t = true ∧ i ∈ ((cfg1.win 2).blk t).view.set := by
  have hp : (i 0).val < 100000 := (i 0).isLt
  have hq : (i 1).val < 128 := (i 1).isLt
  have hlt : (i 0).val / 10000 < cfg1.N := lt_of_lt_of_eq (show (i 0).val / 10000 < 10 by omega) N_1.symm
  obtain ⟨-, -, -, -, e0, e1⟩ := block_indices1 ⟨(i 0).val / 10000, hlt⟩
  refine ⟨⟨(i 0).val / 10000, hlt⟩, flush1_2 _, ?_⟩
  rw [mem_block1]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_2.index ⟨(i 0).val / 10000, hlt⟩ (1 : Fin 2) * 128 ≤ (i 1).val
      ∧ (i 1).val < win1_2.index ⟨(i 0).val / 10000, hlt⟩ (1 : Fin 2) * 128 + 128
    rw [e1]; omega

/-- The output array after all ten points is the whole input with the bias added and rectified. -/
theorem array1_eq (c : Dev nD) :
    (dat1 (F := Ideal) V c).arrAt 2 cfg1.N = rectified1 (input1 V c) (bias1 V c) :=
  (dat1 (F := Ideal) V c).arrAt_eq_of_cover 2 (rectified1 (input1 V c) (bias1 V c))
    (fun t _ => flushed1_eq V c t) covered1

/-- Entry `(p, q)` of the output array after all ten points: the input's `(p, q)` plus the bias of column `q`,
    or zero if that is negative. -/
theorem final1 (c : Dev nD) (p : Fin 100000) (q : Fin 128) :
    (dat1 (F := Ideal) V c).arrAt 2 cfg1.N (ix2 p q)
      = max (input1 V c (ix2 p q) + bias1 V c (ix2 (0 : Fin 1) q)) 0 :=
  (congrFun (array1_eq V c) (ix2 p q)).trans (rectified1_apply _ _ p q)

end Cert.KernelIdeal.Reg

end
-- ==== Proof.KI.Stretch0.lean ====
/-
  The host stretches of the two-layer graph convolution that the kernel program shares with the reference, read off
  the kernel program's buffer valuations.

  Before the first dense product the program normalises the graph once: the edge rows and the edge columns, each
  extended by one self-loop per node; the degree of every node (a scatter-add of ones over the columns); its inverse
  square root where the degree is positive and zero elsewhere; and the weight of an edge, the product of the two
  factors gathered at its endpoints. Before the pooling the host builds the one-hot matrix of the graph ids. Both are
  the same operations of the same argument arrays in the two programs, so each buffer below equals the reference's
  value of the same name.
-/
import proofs.«414571_j14362370638253_1_alg».proof.Proof.Gen.KernelIdeal.Regions
import proofs.«414571_j14362370638253_1_alg».proof.Proof.RefRead
import Idealize.ShloMosaic.Lib.StableHlo.Run

noncomputable section

namespace Cert.KernelIdeal.Bridge

open Cert.KernelIdeal Cert.KernelIdeal.Gen Idealize.ShloMosaic Idealize.ShloMosaic.TcCoe

variable {F : FTy → Type} [FloatOps F]
variable (m : (ℓ : Loc nD τ sig) → Buf (Elt F) ℓ) (outs : Outs (F := F)) (c : Dev nD)

/-! ## The normalisation prefix -/

open Cert.ReferenceIdeal.ReadP in
/-- After the first host stretch the edge rows, each node's self-loop appended, are the reference's. -/
theorem rows_after_first : V1 m c main_v3 = val_main_v3 (F := F) (m ((c.tc : Thread nD τ).loc main_arg1)) := by
  dsimp only [V1, V0, hostOps0]
  after_results
  unfold val_main_v3 val_main_v2 val_main_v1 val_main_v0
  rfl

open Cert.ReferenceIdeal.ReadP in
/-- After the first host stretch the edge columns, each node's self-loop appended, are the reference's. -/
theorem cols_after_first : V1 m c main_v7 = val_main_v7 (F := F) (m ((c.tc : Thread nD τ).loc main_arg1)) := by
  dsimp only [V1, V0, hostOps0]
  after_results
  unfold val_main_v7 val_main_v6 val_main_v5 val_main_v4
  rfl

open Cert.ReferenceIdeal.ReadP in
/-- After the first host stretch: which nodes have a positive degree, the degree being the number of edge columns
    (self-loops included) that name the node. -/
theorem degPositive_after_first :
    V1 m c main_v13 = val_main_v13 (F := F) (m ((c.tc : Thread nD τ).loc main_arg1)) := by
  dsimp only [V1, V0, hostOps0]
  after_results
  unfold val_main_v13 val_main_v12 val_main_cst_1 val_main_v11 val_main_v10 val_main_v9 val_main_cst_0 val_main_v8
    val_main_cst val_main_v7 val_main_v6 val_main_v5 val_main_v4
  rfl

open Cert.ReferenceIdeal.ReadP in
/-- After the first host stretch: every node's degree raised to the power minus one half. -/
theorem degInvSqrt_after_first :
    V1 m c main_v15 = val_main_v15 (F := F) (m ((c.tc : Thread nD τ).loc main_arg1)) := by
  dsimp only [V1, V0, hostOps0]
  after_results
  unfold val_main_v15 val_main_v14 val_main_cst_2 val_main_v11 val_main_v10 val_main_v9 val_main_cst_0 val_main_v8
    val_main_cst val_main_v7 val_main_v6 val_main_v5 val_main_v4
  rfl

open Cert.ReferenceIdeal.ReadP in
/-- After the first host stretch: the zero that replaces the factor of a node of degree zero. -/
theorem zeroFill_after_first : V1 m c main_cst_3 = val_main_cst_3 (F := F) := by
  dsimp only [V1, V0, hostOps0]
  after_results
  unfold val_main_cst_3
  rfl

open Cert.ReferenceIdeal.ReadP in
/-- After the selection (the second host stretch) every node's normalisation factor, its degree to the power minus
    one half where the degree is positive and zero elsewhere, is the reference's. -/
theorem factor_after_select :
    V2 m c main_v16 = val_main_v16 (F := F) (m ((c.tc : Thread nD τ).loc main_arg1)) := by
  have hpos := degPositive_after_first m c
  have hpow := degInvSqrt_after_first m c
  have hzero := zeroFill_after_first m c
  dsimp only [V2, hostOps0_1]
  generalize V1 m c = W at hpos hpow hzero ⊢
  after_results
  rw [hpos, hpow, hzero]
  unfold val_main_v16 val_main_call0_v1 val_main_call0_v0
  rfl

/-- the normalisation prefix (edge rows with self-loops, edge columns with self-loops, the symmetric normalisation
    weights) is the reference's, both being the same operations of the edge array: the edge rows -/
theorem stretch0_v3 : V3 m c main_v3 = Cert.ReferenceIdeal.ReadP.val_main_v3 (F := F) (m ((c.tc : Thread nD τ).loc main_arg1)) :=
  (V3_of m c main_v3 (by decide)).trans <| (V2_of m c main_v3 (by decide)).trans (rows_after_first m c)

/-- the normalisation prefix is the reference's: the edge columns -/
theorem stretch0_v7 : V3 m c main_v7 = Cert.ReferenceIdeal.ReadP.val_main_v7 (F := F) (m ((c.tc : Thread nD τ).loc main_arg1)) :=
  (V3_of m c main_v7 (by decide)).trans <| (V2_of m c main_v7 (by decide)).trans (cols_after_first m c)

open Cert.ReferenceIdeal.ReadP in
/-- the normalisation prefix is the reference's: the weight of every edge, the product of the normalisation factors
    gathered at its row and at its column (a negative node index counted from the end) -/
theorem stretch0_v31 : V3 m c main_v31 = Cert.ReferenceIdeal.ReadP.val_main_v31 (F := F) (m ((c.tc : Thread nD τ).loc main_arg1)) := by
  have hrows := (V2_of m c main_v3 (by decide)).trans (rows_after_first m c)
  have hcols := (V2_of m c main_v7 (by decide)).trans (cols_after_first m c)
  have hfac := factor_after_select m c
  dsimp only [V3, hostOps0_2]
  generalize V2 m c = W at hrows hcols hfac ⊢
  after_results_simp
  rw [hrows, hcols, hfac]
  unfold val_main_v31 val_main_v30 val_main_v29 val_main_v28 val_main_v27 val_main_v26 val_main_c_6 val_main_v25
    val_main_v24 val_main_c_5 val_main_v23 val_main_v22 val_main_v21 val_main_v20 val_main_v19 val_main_c_4
    val_main_v18 val_main_v17 val_main_c
  rfl

/-! ## The one-hot matrix of the graph ids -/

/-- The graph ids reach the one-hot stretch as launched: no earlier item writes them. -/
theorem graphIds_at_onehot : V9 m outs c main_arg2 = m ((c.tc : Thread nD τ).loc main_arg2) :=
  (V9_of m outs c main_arg2 (by decide)).trans <| (V8_of m outs c main_arg2 (by decide)).trans <|
  (V7_of m outs c main_arg2 (by decide)).trans <| (V6_of m outs c main_arg2 (by decide)).trans <|
  (V5_of m outs c main_arg2 (by decide)).trans <| (V4_of m outs c main_arg2 (by decide)).trans <|
  (V3_of m c main_arg2 (by decide)).trans <| (V2_of m c main_arg2 (by decide)).trans <|
  (V1_of m c main_arg2 (by decide))

/-- the one-hot matrix of the graph ids, as the host builds it (hostOps4) -/
theorem stretch4_v70 : V10 m outs c main_v70 = uitofp (F := F) .bf16 (cmpi .eq (broadcastInDim S100000x64 ![0, 1] bcast_S100000x1_S100000x64_0_1 (broadcastInDim S100000x1 ![0] bcast_S100000_S100000x1_0 (m ((c.tc : Thread nD τ).loc main_arg2)))) (broadcastInDim S100000x64 ![0, 1] bcast_S1x64_S100000x64_0_1 (broadcastInDim S1x64 ![1] bcast_S64_S1x64_1 (iotaInDim S64 32 0)))) := by
  rw [← graphIds_at_onehot m outs c]
  dsimp only [V10, hostOps4]
  after_results

end Cert.KernelIdeal.Bridge
-- ==== Proof.KI.Stretch13.lean ====
/-
  Two stretches of host operations between the kernel program's regions, read against the reference program.

  After each dense product (rows of the node features times a weight matrix) the program aggregates over the
  edges of the graph: it gathers the product's rows at the edges' source nodes (a negative node number first
  wrapped round by the number of nodes), multiplies every gathered row by its edge's weight, and adds the
  weighted rows into a zero array at the edges' target nodes. The reference program does the same with the
  same operations in the same order. So, granted that what went in agrees (the two edge-index vectors, the
  edge weights, and the dense product itself), what comes out agrees: this is stated once for each of the two
  layers. Beside the aggregation each stretch lays the layer's bias vector out as a row with a single line,
  and that row read at (0, q) is the vector read at q.

  Everything is stated for an arbitrary family of float values: no arithmetic of the floats is used, only that
  both programs apply the same functions to equal arguments.
-/
import proofs.«414571_j14362370638253_1_alg».proof.Proof.Gen.KernelIdeal.Regions
import proofs.«414571_j14362370638253_1_alg».proof.Proof.RefRead
import Idealize.ShloMosaic.Lib.StableHlo.Run
import Idealize.ShloMosaic.Lib.ValueIdx
import Idealize.ShloMosaic.Lib.Pipeline.Value

noncomputable section

namespace Cert.KernelIdeal.Bridge

open Cert.KernelIdeal Cert.KernelIdeal.Gen Idealize.ShloMosaic Idealize.ShloMosaic.TcCoe Idealize.ShloMosaic.ValueIdx
open Idealize.ShloMosaic.StableHlo

variable {F : FTy → Type} [FloatOps F]
variable (m : (ℓ : Loc nD τ sig) → Buf (Elt F) ℓ) (outs : Outs (F := F)) (c : Dev nD)

/-! ## The first layer -/

set_option maxHeartbeats 4000000 in
/-- The first layer's aggregation over the edges. If the edge sources, the edge targets and the edge weights
    the program holds before its first region are the reference's, and the first region leaves the reference's
    dense product, then the array the stretch after that region ends with — the weighted rows of the product
    gathered at the sources and summed at the targets — is the reference's. -/
theorem stretch1_v45
    (x0 : (⟨Cert.ReferenceIdeal.S100000x128, .f32⟩ : BufTy).Contents (Elt F))
    (x1 : (⟨Cert.ReferenceIdeal.S2x1600000, .i32⟩ : BufTy).Contents (Elt F))
    (x3 : (⟨Cert.ReferenceIdeal.S128x128, .f32⟩ : BufTy).Contents (Elt F))
    (h3 : V3 m c main_v3 = Cert.ReferenceIdeal.ReadP.val_main_v3 (F := F) x1)
    (h7 : V3 m c main_v7 = Cert.ReferenceIdeal.ReadP.val_main_v7 (F := F) x1)
    (h31 : V3 m c main_v31 = Cert.ReferenceIdeal.ReadP.val_main_v31 (F := F) x1)
    (h32 : outs 4 main_v32 c = Cert.ReferenceIdeal.ReadP.val_main_v32 (F := F) x0 x3) :
    V5 m outs c main_v45 = Cert.ReferenceIdeal.ReadP.val_main_v45 (F := F) x0 x1 x3 := by
  -- what the stretch reads, as the first region left it
  have e32 : V4 m outs c main_v32 = Cert.ReferenceIdeal.ReadP.val_main_v32 (F := F) x0 x3 :=
    (Function.update_self ..).trans h32
  have e3 : V4 m outs c main_v3 = Cert.ReferenceIdeal.ReadP.val_main_v3 (F := F) x1 :=
    (V4_of m outs c main_v3 (by decide)).trans h3
  have e7 : V4 m outs c main_v7 = Cert.ReferenceIdeal.ReadP.val_main_v7 (F := F) x1 :=
    (V4_of m outs c main_v7 (by decide)).trans h7
  have e31 : V4 m outs c main_v31 = Cert.ReferenceIdeal.ReadP.val_main_v31 (F := F) x1 :=
    (V4_of m outs c main_v31 (by decide)).trans h31
  -- the stretch's operations composed, over those four arrays
  show StableHlo.after hostOps1 (V4 m outs c) (Proc.devRef .tc main_v45) = _
  after_results_simp
  rw [e32, e3, e7, e31]
  -- the reference's operations of the same stretch composed, over the same four arrays
  simp only [Cert.ReferenceIdeal.ReadP.val_main_v45, Cert.ReferenceIdeal.ReadP.val_main_v44, Cert.ReferenceIdeal.ReadP.val_main_v43, Cert.ReferenceIdeal.ReadP.val_main_cst_9,
    Cert.ReferenceIdeal.ReadP.val_main_v42, Cert.ReferenceIdeal.ReadP.val_main_v41, Cert.ReferenceIdeal.ReadP.val_main_v40, Cert.ReferenceIdeal.ReadP.val_main_v39,
    Cert.ReferenceIdeal.ReadP.val_main_v38, Cert.ReferenceIdeal.ReadP.val_main_v37, Cert.ReferenceIdeal.ReadP.val_main_v36, Cert.ReferenceIdeal.ReadP.val_main_c_8,
    Cert.ReferenceIdeal.ReadP.val_main_v35, Cert.ReferenceIdeal.ReadP.val_main_v34, Cert.ReferenceIdeal.ReadP.val_main_c_7, Cert.ReferenceIdeal.ReadP.val_main_v33]
  rfl

set_option maxHeartbeats 4000000 in
/-- The bias row the first bias region reads: the first layer's bias vector laid out as a single row, so entry (0, q) of the row is entry q of the vector. -/
theorem stretch1_v46 (q : Fin 128) :
    V5 m outs c main_v46 (ix2 (0 : Fin 1) q) = m ((c.tc : Thread nD τ).loc main_arg4) (ix1 q) := by
  have e : V4 m outs c main_arg4 = m ((c.tc : Thread nD τ).loc main_arg4) :=
    (V4_of m outs c main_arg4 (by decide)).trans <| (V3_of m c main_arg4 (by decide)).trans <|
      (V2_of m c main_arg4 (by decide)).trans (V1_of m c main_arg4 (by decide))
  have hv : (V5 m outs c main_v46 : S1x128.Idx → Elt F .f32)
      = shapeCast S1x128 (m ((c.tc : Thread nD τ).loc main_arg4) : S128.Idx → Elt F .f32) shapeCasts_S128_S1x128 := by
    show StableHlo.after hostOps1 (V4 m outs c) (Proc.devRef .tc main_v46) = _
    after_results_simp
    rw [e]
    rfl
  refine (congrFun hv _).trans (shapeCast_apply _ _ _ (ix1 q) ?_)
  rw [Shape.rowMajor_val_one, Shape.rowMajor_val_two]
  show q.val = (0 : Fin 1).val * 128 + q.val
  simp

/-! ## The second layer -/

set_option maxHeartbeats 4000000 in
/-- The second layer's aggregation over the edges. No region or stretch in between writes the edge sources,
    the edge targets or the edge weights, so they are still the reference's; if the third region leaves the
    reference's second dense product, then the array the stretch after it ends with — the weighted rows of
    that product gathered at the sources and summed at the targets — is the reference's. -/
theorem stretch3_v61
    (x0 : (⟨Cert.ReferenceIdeal.S100000x128, .f32⟩ : BufTy).Contents (Elt F))
    (x1 : (⟨Cert.ReferenceIdeal.S2x1600000, .i32⟩ : BufTy).Contents (Elt F))
    (x3 : (⟨Cert.ReferenceIdeal.S128x128, .f32⟩ : BufTy).Contents (Elt F))
    (x4 : (⟨Cert.ReferenceIdeal.S128, .f32⟩ : BufTy).Contents (Elt F))
    (x5 : (⟨Cert.ReferenceIdeal.S128x128, .f32⟩ : BufTy).Contents (Elt F))
    (h3 : V3 m c main_v3 = Cert.ReferenceIdeal.ReadP.val_main_v3 (F := F) x1)
    (h7 : V3 m c main_v7 = Cert.ReferenceIdeal.ReadP.val_main_v7 (F := F) x1)
    (h31 : V3 m c main_v31 = Cert.ReferenceIdeal.ReadP.val_main_v31 (F := F) x1)
    (h48 : outs 7 main_v48 c = Cert.ReferenceIdeal.ReadP.val_main_v50 (F := F) x0 x1 x3 x4 x5) :
    V8 m outs c main_v61 = Cert.ReferenceIdeal.ReadP.val_main_v63 (F := F) x0 x1 x3 x4 x5 := by
  -- what the stretch reads: the third region's product, and three arrays nothing has written since
  have e48 : V7 m outs c main_v48 = Cert.ReferenceIdeal.ReadP.val_main_v50 (F := F) x0 x1 x3 x4 x5 :=
    (Function.update_self ..).trans h48
  have e3 : V7 m outs c main_v3 = Cert.ReferenceIdeal.ReadP.val_main_v3 (F := F) x1 :=
    ((V7_of m outs c main_v3 (by decide)).trans <| (V6_of m outs c main_v3 (by decide)).trans <|
      (V5_of m outs c main_v3 (by decide)).trans (V4_of m outs c main_v3 (by decide))).trans h3
  have e7 : V7 m outs c main_v7 = Cert.ReferenceIdeal.ReadP.val_main_v7 (F := F) x1 :=
    ((V7_of m outs c main_v7 (by decide)).trans <| (V6_of m outs c main_v7 (by decide)).trans <|
      (V5_of m outs c main_v7 (by decide)).trans (V4_of m outs c main_v7 (by decide))).trans h7
  have e31 : V7 m outs c main_v31 = Cert.ReferenceIdeal.ReadP.val_main_v31 (F := F) x1 :=
    ((V7_of m outs c main_v31 (by decide)).trans <| (V6_of m outs c main_v31 (by decide)).trans <|
      (V5_of m outs c main_v31 (by decide)).trans (V4_of m outs c main_v31 (by decide))).trans h31
  -- the stretch's operations composed, over those four arrays
  show StableHlo.after hostOps3 (V7 m outs c) (Proc.devRef .tc main_v61) = _
  after_results_simp
  rw [e48, e3, e7, e31]
  -- the reference's operations of the same stretch composed, over the same four arrays
  simp only [Cert.ReferenceIdeal.ReadP.val_main_v63, Cert.ReferenceIdeal.ReadP.val_main_v62, Cert.ReferenceIdeal.ReadP.val_main_v61, Cert.ReferenceIdeal.ReadP.val_main_cst_12,
    Cert.ReferenceIdeal.ReadP.val_main_v60, Cert.ReferenceIdeal.ReadP.val_main_v59, Cert.ReferenceIdeal.ReadP.val_main_v58, Cert.ReferenceIdeal.ReadP.val_main_v57,
    Cert.ReferenceIdeal.ReadP.val_main_v56, Cert.ReferenceIdeal.ReadP.val_main_v55, Cert.ReferenceIdeal.ReadP.val_main_v54, Cert.ReferenceIdeal.ReadP.val_main_c_11,
    Cert.ReferenceIdeal.ReadP.val_main_v53, Cert.ReferenceIdeal.ReadP.val_main_v52, Cert.ReferenceIdeal.ReadP.val_main_c_10, Cert.ReferenceIdeal.ReadP.val_main_v51]
  rfl

set_option maxHeartbeats 4000000 in
/-- The bias row the second bias region reads: the second layer's bias vector laid out as a single row, so entry (0, q) of the row is entry q of the vector. -/
theorem stretch3_v62 (q : Fin 128) :
    V8 m outs c main_v62 (ix2 (0 : Fin 1) q) = m ((c.tc : Thread nD τ).loc main_arg6) (ix1 q) := by
  have e : V7 m outs c main_arg6 = m ((c.tc : Thread nD τ).loc main_arg6) :=
    (V7_of m outs c main_arg6 (by decide)).trans <| (V6_of m outs c main_arg6 (by decide)).trans <|
      (V5_of m outs c main_arg6 (by decide)).trans <| (V4_of m outs c main_arg6 (by decide)).trans <|
      (V3_of m c main_arg6 (by decide)).trans <| (V2_of m c main_arg6 (by decide)).trans
        (V1_of m c main_arg6 (by decide))
  have hv : (V8 m outs c main_v62 : S1x128.Idx → Elt F .f32)
      = shapeCast S1x128 (m ((c.tc : Thread nD τ).loc main_arg6) : S128.Idx → Elt F .f32) shapeCasts_S128_S1x128 := by
    show StableHlo.after hostOps3 (V7 m outs c) (Proc.devRef .tc main_v62) = _
    after_results_simp
    rw [e]
    rfl
  refine (congrFun hv _).trans (shapeCast_apply _ _ _ (ix1 q) ?_)
  rw [Shape.rowMajor_val_one, Shape.rowMajor_val_two]
  show q.val = (0 : Fin 1).val * 128 + q.val
  simp

end Cert.KernelIdeal.Bridge
-- ==== Proof.RefVal.lean ====
/-
  The reference program's four dense stages, each read at one row `p` and one column `q`.

  The reference computes a two-layer graph convolution. Around each neighbourhood aggregation (kept here as an opaque
  array, `val_main_v45` for the first layer and `val_main_v63` for the second) stand four dense stages:

  * the first layer's product: entry `(p, q)` of `x0 · x3` is `∑ k, x0 (p, k) * x3 (k, q)`;
  * the first layer's bias and rectifier: entry `(p, q)` is `max (a (p, q) + x4 q) 0`, `a` the aggregated array;
  * the second layer's product, of the rectified first layer with `x5`;
  * the second layer's bias and rectifier, with the bias `x6`.

  Each theorem chains the reads of the single operations (the bias is first laid out as a row `[1,128]`, then repeated
  down the `100000` rows; the rectifier's zero is a scalar repeated over the whole array) and names the composed index
  maps by the coordinates `(p, k)`, `(k, q)` and `q` they pick.
-/
import proofs.«414571_j14362370638253_1_alg».proof.Proof.RefRead
import Idealize.ShloMosaic.Lib.ValueIdx
import Idealize.ShloMosaic.PureOps.Ideal
import Idealize.ShloMosaic.PureOps.Ideal.Laws

noncomputable section

open scoped BigOperators

namespace Cert.ReferenceIdeal.RefVal

open Cert.ReferenceIdeal Cert.ReferenceIdeal.ReadP Idealize.ShloMosaic Idealize.ShloMosaic.ValueIdx

/-! ## The index maps, by coordinates -/

/-- In the first product, the term `k` of entry `(p, q)` reads the left factor at row `p`, column `k`. -/
theorem left_of_first_product (p : Fin 100000) (q k : Fin 128) : lidx_main_v32 (ix2 p q) k = ix2 p k :=
  funext fun a => Fin.ext (by match a with | ⟨0, _⟩ => rfl | ⟨1, _⟩ => rfl)

/-- In the first product, the term `k` of entry `(p, q)` reads the right factor at row `k`, column `q`. -/
theorem right_of_first_product (p : Fin 100000) (q k : Fin 128) : ridx_main_v32 (ix2 p q) k = ix2 k q :=
  funext fun a => Fin.ext (by match a with | ⟨0, _⟩ => rfl | ⟨1, _⟩ => rfl)

/-- In the second product, the term `k` of entry `(p, q)` reads the left factor at row `p`, column `k`. -/
theorem left_of_second_product (p : Fin 100000) (q k : Fin 128) : lidx_main_v50 (ix2 p q) k = ix2 p k :=
  funext fun a => Fin.ext (by match a with | ⟨0, _⟩ => rfl | ⟨1, _⟩ => rfl)

/-- In the second product, the term `k` of entry `(p, q)` reads the right factor at row `k`, column `q`. -/
theorem right_of_second_product (p : Fin 100000) (q k : Fin 128) : ridx_main_v50 (ix2 p q) k = ix2 k q :=
  funext fun a => Fin.ext (by match a with | ⟨0, _⟩ => rfl | ⟨1, _⟩ => rfl)

/-- The first bias, laid out as a row and repeated down the rows, is read at entry `(p, q)` from its coordinate `q`. -/
theorem first_bias_coordinate (p : Fin 100000) (q : Fin 128) : idx_main_v46 (idx_main_v47 (ix2 p q)) = ix1 q :=
  funext fun a => Fin.ext (by match a with | ⟨0, _⟩ => rfl)

/-- The second bias, laid out as a row and repeated down the rows, is read at entry `(p, q)` from its coordinate `q`. -/
theorem second_bias_coordinate (p : Fin 100000) (q : Fin 128) : idx_main_v64 (idx_main_v65 (ix2 p q)) = ix1 q :=
  funext fun a => Fin.ext (by match a with | ⟨0, _⟩ => rfl)

/-! ## The four stages -/

/-- The first layer's product: entry `(p, q)` is the sum over `k` of `x0 (p, k) * x3 (k, q)`. -/
theorem v32_at (x0 : (⟨S100000x128, .f32⟩ : BufTy).Contents (Elt Ideal)) (x3 : (⟨S128x128, .f32⟩ : BufTy).Contents (Elt Ideal))
    (p : Fin 100000) (q : Fin 128) :
    val_main_v32 (F := Ideal) x0 x3 (ix2 p q) = ∑ k : Fin 128, x0 (ix2 p k) * x3 (ix2 k q) := by
  rw [val_main_v32_apply]
  refine Finset.sum_congr rfl fun k _ => ?_
  rw [left_of_first_product, right_of_first_product]

/-- The first layer's bias and rectifier: entry `(p, q)` is the aggregated entry plus the bias's coordinate `q`, cut off
    below at zero. -/
theorem v49_at (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (p : Fin 100000) (q : Fin 128) :
    val_main_v49 (F := Ideal) x0 x1 x3 x4 (ix2 p q)
      = max (val_main_v45 (F := Ideal) x0 x1 x3 (ix2 p q) + x4 (ix1 q)) 0 := by
  rw [val_main_v49_apply, val_main_v48_apply, val_main_v47_apply, val_main_v46_apply, val_main_call1_v0_apply,
    val_main_call1_cst_apply, first_bias_coordinate]
  simp only [Ideal.maximumf_def, Ideal.addf_def, Ideal.ofBits_def, Ideal.ofBits_zero_f32]

/-- The second layer's product: entry `(p, q)` is the sum over `k` of the rectified first layer at `(p, k)` times
    `x5 (k, q)`. -/
theorem v50_at (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (p : Fin 100000) (q : Fin 128) :
    val_main_v50 (F := Ideal) x0 x1 x3 x4 x5 (ix2 p q)
      = ∑ k : Fin 128, val_main_v49 (F := Ideal) x0 x1 x3 x4 (ix2 p k) * x5 (ix2 k q) := by
  rw [val_main_v50_apply]
  refine Finset.sum_congr rfl fun k _ => ?_
  rw [left_of_second_product, right_of_second_product]

/-- The second layer's bias and rectifier: entry `(p, q)` is the aggregated entry plus the bias's coordinate `q`, cut
    off below at zero. -/
theorem v67_at (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (p : Fin 100000) (q : Fin 128) :
    val_main_v67 (F := Ideal) x0 x1 x3 x4 x5 x6 (ix2 p q)
      = max (val_main_v63 (F := Ideal) x0 x1 x3 x4 x5 (ix2 p q) + x6 (ix1 q)) 0 := by
  rw [val_main_v67_apply, val_main_v66_apply, val_main_v65_apply, val_main_v64_apply, val_main_call2_v0_apply,
    val_main_call2_cst_apply, second_bias_coordinate]
  simp only [Ideal.maximumf_def, Ideal.addf_def, Ideal.ofBits_def, Ideal.ofBits_zero_f32]

end Cert.ReferenceIdeal.RefVal
-- ==== Proof.KI.Value1.lean ====
/-
  The idealized kernel program's buffers against the reference's stages, from the launch to the pooling region's entry.

  Every float an extended real. The two programs apply the same host operations to the edge array, so the edge rows,
  the edge columns and the normalisation weights agree. The first dense region leaves in its output array, entry by
  entry, the sum over the 128 inner positions of feature times weight: the reference's first product. The host stretch
  that follows (gather the product's rows at the edge rows, weight them, scatter-add them at the edge columns) is the
  reference's, applied to equal inputs. The first bias region leaves each aggregated entry plus its column's bias,
  rectified: the reference's broadcast, sum and maximum with zero. The second layer repeats the three steps on the first
  layer's output. So at the pooling region's entry the second layer's output is the reference's, and the one-hot matrix
  is the host's compare of the graph ids with 0 .. 63.
-/
import proofs.«414571_j14362370638253_1_alg».proof.Proof.KI.Run
import proofs.«414571_j14362370638253_1_alg».proof.Proof.KI.ArrA0
import proofs.«414571_j14362370638253_1_alg».proof.Proof.KI.ArrA1
import proofs.«414571_j14362370638253_1_alg».proof.Proof.KI.ArrA2
import proofs.«414571_j14362370638253_1_alg».proof.Proof.KI.ArrA3
import proofs.«414571_j14362370638253_1_alg».proof.Proof.KI.Stretch0
import proofs.«414571_j14362370638253_1_alg».proof.Proof.KI.Stretch13
import proofs.«414571_j14362370638253_1_alg».proof.Proof.RefVal

set_option maxRecDepth 16384

noncomputable section

namespace Cert.KernelIdeal.Bridge

open Cert.KernelIdeal Cert.KernelIdeal.Gen Cert.KernelIdeal.Reg
open Cert.ReferenceIdeal.ReadP Cert.ReferenceIdeal.RefVal
open Idealize.ShloMosaic Idealize.ShloMosaic.TcCoe Idealize.ShloMosaic.ValueIdx Idealize.SL.Sem

variable (m : (ℓ : Loc nD τ sig) → Buf (Elt Ideal) ℓ) (c : Dev nD)

/-! ## The arguments, at the reference's types -/

abbrev a0 : (⟨Cert.ReferenceIdeal.S100000x128, .f32⟩ : BufTy).Contents (Elt Ideal) := m ((c.tc : Thread nD τ).loc main_arg0)
abbrev a1 : (⟨Cert.ReferenceIdeal.S2x1600000, .i32⟩ : BufTy).Contents (Elt Ideal) := m ((c.tc : Thread nD τ).loc main_arg1)
abbrev a2 : (⟨Cert.ReferenceIdeal.S100000, .i32⟩ : BufTy).Contents (Elt Ideal) := m ((c.tc : Thread nD τ).loc main_arg2)
abbrev a3 : (⟨Cert.ReferenceIdeal.S128x128, .f32⟩ : BufTy).Contents (Elt Ideal) := m ((c.tc : Thread nD τ).loc main_arg3)
abbrev a4 : (⟨Cert.ReferenceIdeal.S128, .f32⟩ : BufTy).Contents (Elt Ideal) := m ((c.tc : Thread nD τ).loc main_arg4)
abbrev a5 : (⟨Cert.ReferenceIdeal.S128x128, .f32⟩ : BufTy).Contents (Elt Ideal) := m ((c.tc : Thread nD τ).loc main_arg5)
abbrev a6 : (⟨Cert.ReferenceIdeal.S128, .f32⟩ : BufTy).Contents (Elt Ideal) := m ((c.tc : Thread nD τ).loc main_arg6)

/-! ## What the regions leave, named -/

theorem outs4_eq : outs m 4 main_v32 c = (dat0 (fun c b => V3 m c b) c).arrAt 2 cfg0.N := by
  show o4 m c main_v32 = _
  unfold o4
  exact Pipeline.withArrays_arr spec0 launch0.win.arr_inj c (V3 m c) (fun w => (dat0 (fun c b => V3 m c b) c).arrAt w cfg0.N) 2
theorem outs6_eq : outs m 6 main_v47 c = (dat1 (fun c b => U5 m c b) c).arrAt 2 cfg1.N := by
  show o6 m c main_v47 = _
  unfold o6
  exact Pipeline.withArrays_arr spec1 launch1.win.arr_inj c (U5 m c) (fun w => (dat1 (fun c b => U5 m c b) c).arrAt w cfg1.N) 2
theorem outs7_eq : outs m 7 main_v48 c = (dat2 (fun c b => U6 m c b) c).arrAt 2 cfg2.N := by
  show o7 m c main_v48 = _
  unfold o7
  exact Pipeline.withArrays_arr spec2 launch2.win.arr_inj c (U6 m c) (fun w => (dat2 (fun c b => U6 m c b) c).arrAt w cfg2.N) 2
theorem outs9_eq : outs m 9 main_v63 c = (dat3 (fun c b => U8 m c b) c).arrAt 2 cfg3.N := by
  show o9 m c main_v63 = _
  unfold o9
  exact Pipeline.withArrays_arr spec3 launch3.win.arr_inj c (U8 m c) (fun w => (dat3 (fun c b => U8 m c b) c).arrAt w cfg3.N) 2

/-! ## An argument read through the host items before a region -/

theorem V3_arg (r : Ref sig .tc) (h0 : r ∉ hostOps0_W) (h1 : r ∉ hostOps0_1_W) (h2 : r ∉ hostOps0_2_W) :
    V3 m c r = m ((c.tc : Thread nD τ).loc r) :=
  (V3_of m c r h2).trans ((V2_of m c r h1).trans ((V1_of m c r h0).trans rfl))

theorem V6_arg (r : Ref sig .tc) (h0 : r ∉ hostOps0_W) (h1 : r ∉ hostOps0_1_W) (h2 : r ∉ hostOps0_2_W)
    (h3 : r ∉ ([main_v32] : List (Ref sig .tc))) (h4 : r ∉ hostOps1_W) (h5 : r ∉ ([main_v47] : List (Ref sig .tc))) :
    V6 m (outs m) c r = m ((c.tc : Thread nD τ).loc r) :=
  (V6_of m (outs m) c r h5).trans ((V5_of m (outs m) c r h4).trans ((V4_of m (outs m) c r h3).trans (V3_arg m c r h0 h1 h2)))

/-! ## Layer one -/

/-- The first dense region's output array is the reference's first product. -/
theorem first_product : outs m 4 main_v32 c = val_main_v32 (F := Ideal) (a0 m c) (a3 m c) := by
  have hx : features0 (fun c b => V3 m c b) c = a0 m c := V3_arg m c main_arg0 (by decide) (by decide) (by decide)
  have hw : weights0 (fun c b => V3 m c b) c = a3 m c := V3_arg m c main_arg3 (by decide) (by decide) (by decide)
  rw [outs4_eq, array0_eq, hx, hw]
  funext i
  obtain ⟨p, q, rfl⟩ : ∃ (p : Fin 100000) (q : Fin 128), i = ix2 p q := ⟨i 0, i 1, eq_ix2 i⟩
  rw [dense0_apply, v32_at]

/-- The aggregated features of layer one are the reference's. -/
theorem first_aggregate : V5 m (outs m) c main_v45 = val_main_v45 (F := Ideal) (a0 m c) (a1 m c) (a3 m c) :=
  stretch1_v45 m (outs m) c (a0 m c) (a1 m c) (a3 m c) (stretch0_v3 m c) (stretch0_v7 m c) (stretch0_v31 m c) (first_product m c)

/-- The first bias region's output array is the reference's first rectified layer. -/
theorem first_layer : outs m 6 main_v47 c = val_main_v49 (F := Ideal) (a0 m c) (a1 m c) (a3 m c) (a4 m c) := by
  have hin : input1 (fun c b => U5 m c b) c = val_main_v45 (F := Ideal) (a0 m c) (a1 m c) (a3 m c) := first_aggregate m c
  have hb : ∀ q : Fin 128, bias1 (fun c b => U5 m c b) c (ix2 (0 : Fin 1) q) = a4 m c (ix1 q) := fun q => stretch1_v46 m (outs m) c q
  rw [outs6_eq, array1_eq, hin]
  funext i
  obtain ⟨p, q, rfl⟩ : ∃ (p : Fin 100000) (q : Fin 128), i = ix2 p q := ⟨i 0, i 1, eq_ix2 i⟩
  rw [rectified1_apply, v49_at, hb q]

/-! ## Layer two -/

/-- The second dense region's output array is the reference's second product. -/
theorem second_product : outs m 7 main_v48 c = val_main_v50 (F := Ideal) (a0 m c) (a1 m c) (a3 m c) (a4 m c) (a5 m c) := by
  have hx : features2 (fun c b => U6 m c b) c = val_main_v49 (F := Ideal) (a0 m c) (a1 m c) (a3 m c) (a4 m c) :=
    (show U6 m c main_v47 = outs m 6 main_v47 c from Function.update_self _ _ _).trans (first_layer m c)
  have hw : weights2 (fun c b => U6 m c b) c = a5 m c :=
    V6_arg m c main_arg5 (by decide) (by decide) (by decide) (by decide) (by decide) (by decide)
  rw [outs7_eq, array2_eq, hx, hw]
  funext i
  obtain ⟨p, q, rfl⟩ : ∃ (p : Fin 100000) (q : Fin 128), i = ix2 p q := ⟨i 0, i 1, eq_ix2 i⟩
  rw [dense2_apply, v50_at]

/-- The aggregated features of layer two are the reference's. -/
theorem second_aggregate : V8 m (outs m) c main_v61 = val_main_v63 (F := Ideal) (a0 m c) (a1 m c) (a3 m c) (a4 m c) (a5 m c) :=
  stretch3_v61 m (outs m) c (a0 m c) (a1 m c) (a3 m c) (a4 m c) (a5 m c) (stretch0_v3 m c) (stretch0_v7 m c) (stretch0_v31 m c) (second_product m c)

/-- The second bias region's output array is the reference's second rectified layer. -/
theorem second_layer : outs m 9 main_v63 c = val_main_v67 (F := Ideal) (a0 m c) (a1 m c) (a3 m c) (a4 m c) (a5 m c) (a6 m c) := by
  have hin : input3 (fun c b => U8 m c b) c = val_main_v63 (F := Ideal) (a0 m c) (a1 m c) (a3 m c) (a4 m c) (a5 m c) := second_aggregate m c
  have hb : ∀ q : Fin 128, bias3 (fun c b => U8 m c b) c (ix2 (0 : Fin 1) q) = a6 m c (ix1 q) := fun q => stretch3_v62 m (outs m) c q
  rw [outs9_eq, array3_eq, hin]
  funext i
  obtain ⟨p, q, rfl⟩ : ∃ (p : Fin 100000) (q : Fin 128), i = ix2 p q := ⟨i 0, i 1, eq_ix2 i⟩
  rw [rectified3_apply, v67_at, hb q]

end Cert.KernelIdeal.Bridge

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.KI.PoolVal.lean ====
/-
  The pooling region, as mathematics on the extended reals.

  The region keeps a [64, 128] accumulator. It resets it to zero, then for each of ten blocks of 10000 rows adds the
  product of the block's one-hot matrix, transposed, with the block's feature rows: entry (g, j) gains the sum over the
  block's rows r of onehot (r, g) * h (r, j). The one-hot matrix has a one at (i, g) exactly when row i's graph id, read
  as a signed integer, is g. Summed over the ten blocks this is, for each g, the sum of the rows whose id is g: the
  scatter-add of the rows at their ids into zeros.
-/
import proofs.«414571_j14362370638253_1_alg».proof.Proof.Gen.KernelIdeal.Skeleton
import proofs.«414571_j14362370638253_1_alg».proof.Proof.LibRowScatterAdd
import proofs.«414571_j14362370638253_1_alg».proof.ReferenceIdeal
import proofs.«414571_j14362370638253_1_alg».proof.Proof.Gen.ReferenceIdeal
import Idealize.ShloMosaic.Lib.ValueIdx
import Idealize.ShloMosaic.Lib.Pipeline.Value
import Idealize.ShloMosaic.PureOps.Ideal.Laws

noncomputable section

namespace Cert.KernelIdeal.PoolVal

open Cert.KernelIdeal Cert.KernelIdeal.Gen Idealize.ShloMosaic Idealize.ShloMosaic.ValueIdx

/-! ## The reset -/

/-- the reset value is zero everywhere -/
theorem k4_pay1_apply (g : Fin 64) (j : Fin 128) : k4_pay1 (F := Ideal) (ix2 g j) = 0 := by
  unfold k4_pay1
  rw [shapeCast_self]
  exact Ideal.ofBits_zero_f32

/-! ## One accumulation: a product that contracts the row axis of both operands -/

/-- The left operand's axis 0 is the contracted one: it reads the contraction position. -/
theorem lhs_pool_0 (i : S64x128.Idx) (q : dot_S10000x64_S10000x128_S64x128_0_0_1_1_n_n.contr.Idx) :
    (dot_S10000x64_S10000x128_S64x128_0_0_1_1_n_n.lhsIdx i q 0).val = (q ⟨0, by decide⟩).val :=
  dot_S10000x64_S10000x128_S64x128_0_0_1_1_n_n.lhsIdx_val_of_single rfl i q
/-- The left operand's axis 1 is kept, and is the result's axis 0. -/
theorem lhs_pool_1 (i : S64x128.Idx) (q : dot_S10000x64_S10000x128_S64x128_0_0_1_1_n_n.contr.Idx) :
    (dot_S10000x64_S10000x128_S64x128_0_0_1_1_n_n.lhsIdx i q 1).val = (i 0).val := by
  unfold DotDims.lhsIdx
  rw [dif_neg (show ¬(1 : Fin S10000x64.rank) ∈ dot_S10000x64_S10000x128_S64x128_0_0_1_1_n_n.lhsBatch by decide), dif_pos (show (1 : Fin S10000x64.rank) ∈ dot_S10000x64_S10000x128_S64x128_0_0_1_1_n_n.lhsNonContracting by decide)]
  rfl
/-- The right operand's axis 0 is the contracted one: it reads the contraction position. -/
theorem rhs_pool_0 (i : S64x128.Idx) (q : dot_S10000x64_S10000x128_S64x128_0_0_1_1_n_n.contr.Idx) :
    (dot_S10000x64_S10000x128_S64x128_0_0_1_1_n_n.rhsIdx i q 0).val = (q ⟨0, by decide⟩).val :=
  dot_S10000x64_S10000x128_S64x128_0_0_1_1_n_n.rhsIdx_val_of_single rfl i q
/-- The right operand's axis 1 is kept, and is the result's axis 1. -/
theorem rhs_pool_1 (i : S64x128.Idx) (q : dot_S10000x64_S10000x128_S64x128_0_0_1_1_n_n.contr.Idx) :
    (dot_S10000x64_S10000x128_S64x128_0_0_1_1_n_n.rhsIdx i q 1).val = (i 1).val := by
  unfold DotDims.rhsIdx
  rw [dif_neg (show ¬(1 : Fin S10000x128.rank) ∈ dot_S10000x64_S10000x128_S64x128_0_0_1_1_n_n.rhsBatch by decide), dif_pos (show (1 : Fin S10000x128.rank) ∈ dot_S10000x64_S10000x128_S64x128_0_0_1_1_n_n.rhsNonContracting by decide)]
  rfl

/-- The product into zeros, read at (g, j): the sum over the 10000 rows of left (r, g) times right (r, j). -/
theorem pool_matmul_apply (a : FVec Ideal S10000x64 .bf16) (b : FVec Ideal S10000x128 .bf16) (g : Fin 64) (j : Fin 128) :
    FloatOps.matmul dot_S10000x64_S10000x128_S64x128_0_0_1_1_n_n none a b (constant S64x128 .f32 0x00000000#32) (ix2 g j)
      = ∑ r : Fin 10000, a (ix2 r g) * b (ix2 r j) := by
  rw [Ideal.matmul_constant_zero_apply, ← Equiv.sum_comp (contrEquiv1 dot_S10000x64_S10000x128_S64x128_0_0_1_1_n_n 10000 rfl rfl).symm]
  refine Finset.sum_congr rfl fun r _ => ?_
  have hk := contrEquiv1_symm_val dot_S10000x64_S10000x128_S64x128_0_0_1_1_n_n 10000 rfl rfl r
  have el : dot_S10000x64_S10000x128_S64x128_0_0_1_1_n_n.lhsIdx (ix2 g j) ((contrEquiv1 dot_S10000x64_S10000x128_S64x128_0_0_1_1_n_n 10000 rfl rfl).symm r) = ix2 r g := funext fun c => Fin.ext (by
    match c with
    | ⟨0, _⟩ => exact (lhs_pool_0 _ _).trans hk
    | ⟨1, _⟩ => exact lhs_pool_1 _ _)
  have er : dot_S10000x64_S10000x128_S64x128_0_0_1_1_n_n.rhsIdx (ix2 g j) ((contrEquiv1 dot_S10000x64_S10000x128_S64x128_0_0_1_1_n_n 10000 rfl rfl).symm r) = ix2 r j := funext fun c => Fin.ext (by
    match c with
    | ⟨0, _⟩ => exact (rhs_pool_0 _ _).trans hk
    | ⟨1, _⟩ => exact rhs_pool_1 _ _)
  rw [el, er]

/-- one accumulation: the accumulator plus, over the block's 10000 rows, one-hot entry times feature entry (the product contracts axis 0 of both operands) -/
theorem k4_pay2_apply (oh : Vec Ideal S10000x64 .bf16) (h : Vec Ideal S10000x128 .f32) (acc : Vec Ideal S64x128 .f32) (g : Fin 64) (j : Fin 128) :
    k4_pay2 (F := Ideal) oh h acc (ix2 g j) = acc (ix2 g j) + ∑ r : Fin 10000, oh (ix2 r g) * h (ix2 r j) := by
  unfold k4_pay2
  simp only [shapeCast_self]
  rw [addf_apply]
  simp only [matmul]
  rw [pool_matmul_apply]
  rfl

/-! ## The one-hot matrix -/

/-- the one-hot matrix the host builds from the graph ids: the ids as a column stretched along 64 columns, compared for
    equality with the column numbers 0 … 63 stretched along the rows, the bit converted to a number; read at (i, g):
    one where the id read signed equals g, else zero -/
def onehot (batch : IVec S100000 32) : Vec Ideal S100000x64 .bf16 :=
  uitofp (F := Ideal) .bf16 (cmpi .eq (broadcastInDim S100000x64 ![0, 1] bcast_S100000x1_S100000x64_0_1 (broadcastInDim S100000x1 ![0] bcast_S100000_S100000x1_0 batch)) (broadcastInDim S100000x64 ![0, 1] bcast_S1x64_S100000x64_0_1 (broadcastInDim S1x64 ![1] bcast_S64_S1x64_1 (iotaInDim S64 32 0))))

/-- A column number below 64, as a 32-bit word read signed, is itself. -/
theorem toInt_ofNat_col (g : Fin 64) : (BitVec.ofNat 32 g.val).toInt = (g.val : Int) := by
  revert g; decide

/-- The ids' column stretched to [100000, 64] reads row i's id at every column. -/
theorem ids_stretched_apply (batch : IVec S100000 32) (i : Fin 100000) (g : Fin 64) :
    broadcastInDim S100000x64 ![0, 1] bcast_S100000x1_S100000x64_0_1 (broadcastInDim S100000x1 ![0] bcast_S100000_S100000x1_0 batch) (ix2 i g)
      = batch (ix1 i) := by
  rw [broadcastInDim_apply _ bcast_S100000x1_S100000x64_0_1 _ (ix2 i g) (ix2 i (0 : Fin 1)) (fun a => match a with
    | ⟨0, _⟩ => by show i.val = if (100000 : Nat) = 1 then 0 else i.val; rw [if_neg (by decide)]
    | ⟨1, _⟩ => by show (0 : Nat) = if (1 : Nat) = 1 then 0 else g.val; rw [if_pos rfl])]
  exact broadcastInDim_apply _ bcast_S100000_S100000x1_0 batch (ix2 i (0 : Fin 1)) (ix1 i) (fun a => match a with
    | ⟨0, _⟩ => by show i.val = if (100000 : Nat) = 1 then 0 else i.val; rw [if_neg (by decide)])

/-- The column numbers stretched to [100000, 64] read the column's number at every row. -/
theorem cols_stretched_apply (i : Fin 100000) (g : Fin 64) :
    broadcastInDim S100000x64 ![0, 1] bcast_S1x64_S100000x64_0_1 (broadcastInDim S1x64 ![1] bcast_S64_S1x64_1 (iotaInDim S64 32 0)) (ix2 i g)
      = BitVec.ofNat 32 g.val := by
  rw [broadcastInDim_apply _ bcast_S1x64_S100000x64_0_1 _ (ix2 i g) (ix2 (0 : Fin 1) g) (fun a => match a with
    | ⟨0, _⟩ => by show (0 : Nat) = if (1 : Nat) = 1 then 0 else i.val; rw [if_pos rfl]
    | ⟨1, _⟩ => by show g.val = if (64 : Nat) = 1 then 0 else g.val; rw [if_neg (by decide)])]
  rw [broadcastInDim_apply _ bcast_S64_S1x64_1 (iotaInDim S64 32 0) (ix2 (0 : Fin 1) g) (ix1 g) (fun a => match a with
    | ⟨0, _⟩ => by show g.val = if (64 : Nat) = 1 then 0 else g.val; rw [if_neg (by decide)])]
  rfl

theorem onehot_apply (batch : IVec S100000 32) (i : Fin 100000) (g : Fin 64) :
    onehot batch (ix2 i g) = if (batch (ix1 i)).toInt = (g.val : Int) then 1 else 0 := by
  show FloatOps.uitofp (F := Ideal) .bf16 (IntOp.cmpi .eq
      (broadcastInDim S100000x64 ![0, 1] bcast_S100000x1_S100000x64_0_1 (broadcastInDim S100000x1 ![0] bcast_S100000_S100000x1_0 batch) (ix2 i g))
      (broadcastInDim S100000x64 ![0, 1] bcast_S1x64_S100000x64_0_1 (broadcastInDim S1x64 ![1] bcast_S64_S1x64_1 (iotaInDim S64 32 0)) (ix2 i g))) = _
  rw [ids_stretched_apply, cols_stretched_apply]
  show (((BitVec.ofBool (batch (ix1 i) == BitVec.ofNat 32 g.val)).toNat : ℝ) : EReal) = _
  by_cases hc : (batch (ix1 i)).toInt = (g.val : Int)
  · have he : batch (ix1 i) = BitVec.ofNat 32 g.val := BitVec.eq_of_toInt_eq (hc.trans (toInt_ofNat_col g).symm)
    rw [if_pos hc, he]
    simp
  · have hne : batch (ix1 i) ≠ BitVec.ofNat 32 g.val := fun he => hc (by rw [he]; exact toInt_ofNat_col g)
    rw [if_neg hc]
    have : (batch (ix1 i) == BitVec.ofNat 32 g.val) = false := by simpa using hne
    rw [this]
    simp

/-! ## Ten blocks are all the rows -/

/-- ten blocks of 10000 consecutive rows are all 100000 rows -/
theorem sum_blocks (f : Fin 100000 → EReal) : ∑ t : Fin 10, ∑ r : Fin 10000, f ⟨t.val * 10000 + r.val, by omega⟩ = ∑ i : Fin 100000, f i := by
  rw [← Finset.sum_product']
  refine Finset.sum_bij' (fun p _ => (⟨p.1.val * 10000 + p.2.val, by omega⟩ : Fin 100000))
    (fun i _ => ((⟨i.val / 10000, by omega⟩ : Fin 10), (⟨i.val % 10000, by omega⟩ : Fin 10000)))
    (fun _ _ => Finset.mem_univ _) (fun _ _ => Finset.mem_univ _) ?_ ?_ (fun _ _ => rfl)
  · rintro ⟨t, r⟩ _
    refine Prod.ext (Fin.ext ?_) (Fin.ext ?_)
    · show (t.val * 10000 + r.val) / 10000 = t.val
      omega
    · show (t.val * 10000 + r.val) % 10000 = r.val
      omega
  · intro i _
    refine Fin.ext ?_
    show i.val / 10000 * 10000 + i.val % 10000 = i.val
    omega

/-! ## The pool law -/

/-- The reference's scatter-add of rows, read at (g, j): the operand's entry plus the sum, over the rows whose index read
    signed is g, of the row's entry in column j. Its dimension numbers are the row scatter's at 64 targets, 100000 rows
    and 128 columns, field by field. -/
theorem refScatterAdd_apply (x : FVec Ideal Cert.ReferenceIdeal.S64x128 .f32) (idx : IVec Cert.ReferenceIdeal.S100000x1 32)
    (u : FVec Ideal Cert.ReferenceIdeal.S100000x128 .f32) (g : Fin 64) (j : Fin 128) :
    Host.scatterAdd (F := Ideal) Cert.ReferenceIdeal.scatter_S64x128_S100000x1_S100000x128_1_0_0_1 x idx u (ix2 g j)
      = x (ix2 g j) + ∑ r : Fin 100000, if (idx (ix2 r (0 : Fin 1))).toInt = (g.val : Int) then u (ix2 r j) else 0 :=
  rowScatterAdd_apply Cert.ReferenceIdeal.Gen.scatter_S64x128_S100000x1_S100000x128_1_0_0_1_wf x idx u g j

/-- The ids as a column [100000, 1] read row i's id. -/
theorem ids_column_apply (batch : IVec S100000 32) (i : Fin 100000) :
    broadcastInDim Cert.ReferenceIdeal.S100000x1 ![0] Cert.ReferenceIdeal.Gen.bcast_S100000_S100000x1_0 batch (ix2 i (0 : Fin 1)) = batch (ix1 i) :=
  broadcastInDim_apply _ Cert.ReferenceIdeal.Gen.bcast_S100000_S100000x1_0 batch (ix2 i (0 : Fin 1)) (ix1 i) (fun a => match a with
    | ⟨0, _⟩ => by show i.val = if (100000 : Nat) = 1 then 0 else i.val; rw [if_neg (by decide)])

/-- THE POOL LAW: zero plus the sum over all rows of one-hot entry times feature entry is the reference's scatter-add of the rows at the graph ids into zeros -/
theorem pool_eq_scatter (batch : IVec S100000 32) (h : Vec Ideal S100000x128 .f32) (g : Fin 64) (j : Fin 128) :
    (0 : EReal) + ∑ i : Fin 100000, onehot batch (ix2 i g) * h (ix2 i j)
      = Host.scatterAdd (F := Ideal) Cert.ReferenceIdeal.scatter_S64x128_S100000x1_S100000x128_1_0_0_1 (broadcastInDim Cert.ReferenceIdeal.S64x128 ![] Cert.ReferenceIdeal.Gen.bcast_S_S64x128 (constant (F := Ideal) Cert.ReferenceIdeal.S_ .f32 0x00000000#32)) (broadcastInDim Cert.ReferenceIdeal.S100000x1 ![0] Cert.ReferenceIdeal.Gen.bcast_S100000_S100000x1_0 batch) h (ix2 g j) := by
  refine Eq.trans ?_ (refScatterAdd_apply _ _ h g j).symm
  refine congrArg₂ (· + ·) ?_ ?_
  · show (0 : EReal) = Ideal.ofBits .f32 0x00000000#32
    exact Ideal.ofBits_zero_f32.symm
  · refine Finset.sum_congr rfl fun i _ => ?_
    rw [onehot_apply, ids_column_apply]
    by_cases hc : (batch (ix1 i)).toInt = (g.val : Int)
    · rw [if_pos hc, if_pos hc, one_mul]
    · rw [if_neg hc, if_neg hc, zero_mul]

end Cert.KernelIdeal.PoolVal

end
-- ==== Proof.KI.ArrR4.lean ====
/-
  The pooling region's output array after all ten grid points, entry by entry, with every float an extended real.

  The region keeps a [64, 128] accumulator. At the first point it is reset to zero; at every point t it gains, at
  entry (g, j), the sum over the 10000 rows r of the point's blocks of the one-hot block's (r, g) times the feature
  block's (r, j); and row r of the blocks of point t is row 10000 t + r of the arrays. So after point n the
  accumulator's (g, j) is zero plus the sum, over the points t up to n and the rows r of a block, of the one-hot
  matrix's (10000 t + r, g) times the features' (10000 t + r, j); after the last point, since ten blocks of 10000
  consecutive rows are all 100000 rows, it is zero plus the sum over every row i of one-hot (i, g) times features (i, j).

  The output array [64, 128] is one block, whose block index never moves, written back only after the last point;
  what the last point stores there is the accumulator it has just updated. The block is the whole array, so every
  entry of the output lies in it, and the array ends holding the accumulator's final contents.
-/
import proofs.«414571_j14362370638253_1_alg».proof.Proof.KI.RegR4
import proofs.«414571_j14362370638253_1_alg».proof.Proof.KI.PoolVal
import Idealize.ShloMosaic.Lib.ValueIdx
import Idealize.ShloMosaic.Lib.Pipeline.Value
import Idealize.ShloMosaic.PureOps.Ideal
import Mathlib.Algebra.BigOperators.Fin
import Mathlib.Algebra.BigOperators.Group.Finset.Basic

set_option maxRecDepth 16384

noncomputable section

namespace Cert.KernelIdeal.Reg

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

/-! ## What each case of the body leaves, as a value -/

section Pieces

variable {F : FTy → Type} [FloatOps F]

/-- A rectangle that starts at row 0, column 0 starts at the origin. -/
theorem origin4 : (![0, 0] : Fin 2 → Nat) = fun _ => 0 := funext fun a => by fin_cases a <;> rfl

/-- The first point leaves in the accumulator one accumulation of its two blocks over the reset value. -/
theorem sout4_A_eq (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : cond4_0 i) (hc1 : ¬cond4_1 i) (x0 : Vec F S10000x64 .bf16) (x1 : Vec F S10000x128 .f32) :
    sout4_A c i arg1 harg1 arg2 harg2 arg3 harg3 arg4 harg4 hc0 hc1 x0 x1 = k4_pay2 x0 x1 (k4_pay1 (F := F)) := by
  unfold sout4_A
  rw [View.read_writes_eq_canon _ _ _ (scover4_A c i arg1 harg1 arg2 harg2 arg3 harg3 arg4 harg4 hc0 hc1 x0 x1)]
  unfold kernelRun4_A
  dsimp only
  sl_unfold_words
  rw [View.canon_cons_unit_zero (S := S64x128) origin4]
  simp only [View.readCov_unit_zero (S := S64x128) _ origin4, View.readAt_eq_ld, harg1.read_unread, harg2.read_unread,
    View.ld_unit_zero (S := S10000x64) origin4, View.ld_unit_zero (S := S10000x128) origin4, View.ld_unit_zero (S := S64x128) origin4]

/-- A middle point leaves in the accumulator one accumulation of its two blocks over what it found there. -/
theorem sout4_B_eq (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : ¬cond4_1 i) (x0 : Vec F S10000x64 .bf16) (x1 : Vec F S10000x128 .f32) (xs : Vec F S64x128 .f32) :
    sout4_B c i arg1 harg1 arg2 harg2 arg3 harg3 arg4 harg4 hc0 hc1 x0 x1 xs = k4_pay2 x0 x1 xs := by
  unfold sout4_B
  rw [View.read_writes_eq_canon _ _ _ (scover4_B c i arg1 harg1 arg2 harg2 arg3 harg3 arg4 harg4 hc0 hc1 x0 x1 xs)]
  unfold kernelRun4_B
  dsimp only
  sl_unfold_words
  rw [View.canon_unit_zero (S := S64x128) origin4]
  simp only [View.readCov_unit_zero (S := S64x128) _ origin4, View.readAt_eq_ld, harg1.read_unread, harg2.read_unread, harg4.read_unread,
    View.ld_unit_zero (S := S10000x64) origin4, View.ld_unit_zero (S := S10000x128) origin4, View.ld_unit_zero (S := S64x128) origin4]

/-- The last point leaves in the accumulator one accumulation of its two blocks over what it found there. -/
theorem sout4_C_eq (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : cond4_1 i) (x0 : Vec F S10000x64 .bf16) (x1 : Vec F S10000x128 .f32) (xs : Vec F S64x128 .f32) :
    sout4_C c i arg1 harg1 arg2 harg2 arg3 harg3 arg4 harg4 hc0 hc1 x0 x1 xs = k4_pay2 x0 x1 xs := by
  unfold sout4_C
  rw [View.read_writes_eq_canon _ _ _ (scover4_C c i arg1 harg1 arg2 harg2 arg3 harg3 arg4 harg4 hc0 hc1 x0 x1 xs)]
  unfold kernelRun4_C
  dsimp only
  sl_unfold_words
  rw [View.canon_unit_zero (S := S64x128) origin4]
  simp only [View.readCov_unit_zero (S := S64x128) _ origin4, View.readAt_eq_ld, harg1.read_unread, harg2.read_unread, harg4.read_unread,
    View.ld_unit_zero (S := S10000x64) origin4, View.ld_unit_zero (S := S10000x128) origin4, View.ld_unit_zero (S := S64x128) origin4]

/-- The last point leaves in the output's buffer the same value it leaves in the accumulator. -/
theorem out4_C_eq (c : Dev nD) (i : grid4.Coords) (arg1 : Memref sig .tc .vmem S10000x64 .bf16) (harg1 : arg1.IsWhole) (arg2 : Memref sig .tc .vmem S10000x128 .f32) (harg2 : arg2.IsWhole) (arg3 : Memref sig .tc .vmem S64x128 .f32) (harg3 : arg3.IsWhole) (arg4 : Memref sig .tc .vmem S64x128 .f32) (harg4 : arg4.IsWhole) (hc0 : ¬cond4_0 i) (hc1 : cond4_1 i) (x0 : Vec F S10000x64 .bf16) (x1 : Vec F S10000x128 .f32) (xs : Vec F S64x128 .f32) :
    out4_C c i arg1 harg1 arg2 harg2 arg3 harg3 arg4 harg4 hc0 hc1 x0 x1 xs = k4_pay2 x0 x1 xs := by
  unfold out4_C
  rw [View.read_writes_eq_canon _ _ _ (cover4_C c i arg1 harg1 arg2 harg2 arg3 harg3 arg4 harg4 hc0 hc1 x0 x1 xs)]
  unfold kernelRun4_C
  dsimp only
  sl_unfold_words
  rw [View.canon_unit_zero (S := S64x128) origin4]
  simp only [View.readCov_unit_zero (S := S64x128) _ origin4, View.readAt_eq_ld, harg1.read_unread, harg2.read_unread, harg4.read_unread,
    View.ld_unit_zero (S := S10000x64) origin4, View.ld_unit_zero (S := S10000x128) origin4, View.ld_unit_zero (S := S64x128) origin4]

end Pieces

/-! ## The arrays the region reads, and where a point's blocks sit in them -/

section Array

variable (V : (c : Dev nD) → (b : Ref sig .tc) → Buf (Elt Ideal) ((c : Thread nD τ).loc b))

/-- The one-hot matrix and the second layer's output as the region finds them, at their literal shapes. -/
abbrev onehot4 (c : Dev nD) : Vec Ideal S100000x64 .bf16 := V c main_v70
abbrev feats4 (c : Dev nD) : Vec Ideal S100000x128 .f32 := V c main_v63

/-- Where the three windows' blocks sit at point `t`: the row blocks of the one-hot matrix and of the features are
    block `t` down the rows, the output's one block is at the origin, and no window moves along the columns. -/
theorem block_indices4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Row `r` of the one-hot block at point `t` is row `10000 * t + r` of the one-hot matrix. -/
theorem onehot_block_apply (c : Dev nD) (t : Fin cfg4.N) (y : S10000x64.Idx) (i : S100000x64.Idx)
    (h0 : (i 0).val = t.val * 10000 + (y 0).val) (h1 : (i 1).val = (y 1).val) :
    (iblk4 V c 0 t : Vec Ideal S10000x64 .bf16) y = onehot4 V c i := by
  obtain ⟨e0, e1, -⟩ := block_indices4 t
  unfold iblk4
  show V c main_v70 (((cfg4.win 0).blk t).view.emb y) = V c main_v70 i
  congr 1
  funext a
  apply Fin.ext
  match a with
  | ⟨0, _⟩ => show win4_0.index t (0 : Fin 2) * 10000 + 1 * (y 0).val = (i 0).val; omega
  | ⟨1, _⟩ => show win4_0.index t (1 : Fin 2) * 64 + 1 * (y 1).val = (i 1).val; omega

/-- Row `r` of the feature block at point `t` is row `10000 * t + r` of the features. -/
theorem feats_block_apply (c : Dev nD) (t : Fin cfg4.N) (y : S10000x128.Idx) (i : S100000x128.Idx)
    (h0 : (i 0).val = t.val * 10000 + (y 0).val) (h1 : (i 1).val = (y 1).val) :
    (iblk4 V c 1 t : Vec Ideal S10000x128 .f32) y = feats4 V c i := by
  obtain ⟨-, -, e0, e1, -⟩ := block_indices4 t
  unfold iblk4
  show V c main_v63 (((cfg4.win 1).blk t).view.emb y) = V c main_v63 i
  congr 1
  funext a
  apply Fin.ext
  match a with
  | ⟨0, _⟩ => show win4_1.index t (0 : Fin 2) * 10000 + 1 * (y 0).val = (i 0).val; omega
  | ⟨1, _⟩ => show win4_1.index t (1 : Fin 2) * 128 + 1 * (y 1).val = (i 1).val; omega

/-! ## The accumulator, point by point -/

/-- What row number `i` contributes to entry `(g, j)`: the one-hot matrix's `(i, g)` times the features' `(i, j)`;
    nothing past the last row. -/
def rowTerm4 (c : Dev nD) (g : Fin 64) (j : Fin 128) (i : ℕ) : EReal :=
  if h : i < 100000 then onehot4 V c (ix2 (⟨i, h⟩ : Fin 100000) g) * feats4 V c (ix2 (⟨i, h⟩ : Fin 100000) j) else 0

theorem rowTerm4_of_lt (c : Dev nD) (g : Fin 64) (j : Fin 128) (i : ℕ) (h : i < 100000) :
    rowTerm4 V c g j i = onehot4 V c (ix2 (⟨i, h⟩ : Fin 100000) g) * feats4 V c (ix2 (⟨i, h⟩ : Fin 100000) j) := dif_pos h

/-- What the blocks of point `t` contribute to entry `(g, j)`: the contributions of rows `10000 t .. 10000 t + 9999`. -/
theorem block_sum4 (c : Dev nD) (t : Fin cfg4.N) (g : Fin 64) (j : Fin 128)
    (x0 : Vec Ideal S10000x64 .bf16) (x1 : Vec Ideal S10000x128 .f32) (hx0 : x0 = iblk4 V c 0 t) (hx1 : x1 = iblk4 V c 1 t) :
    ∑ r : Fin 10000, x0 (ix2 r g) * x1 (ix2 r j) = ∑ r : Fin 10000, rowTerm4 V c g j (t.val * 10000 + r.val) := by
  subst hx0 hx1
  have ht : t.val < 10 := lt_of_lt_of_eq t.isLt N_4
  refine Finset.sum_congr rfl fun r _ => ?_
  have hr : t.val * 10000 + r.val < 100000 := by have := r.isLt; omega
  rw [rowTerm4_of_lt V c g j _ hr,
    onehot_block_apply V c t (ix2 r g) (ix2 (⟨t.val * 10000 + r.val, hr⟩ : Fin 100000) g) rfl rfl,
    feats_block_apply V c t (ix2 r j) (ix2 (⟨t.val * 10000 + r.val, hr⟩ : Fin 100000) j) rfl rfl]

/-- After the first point the accumulator's `(g, j)` is zero plus the first block's contribution. -/
theorem acc_first4 (c : Dev nD) (t : Fin cfg4.N) (h0 : t.val = 0) (g : Fin 64) (j : Fin 128) :
    (outsAt4 V c t.val t.isLt).2 (ix2 g j) = 0 + ∑ r : Fin 10000, rowTerm4 V c g j (t.val * 10000 + r.val) := by
  rw [outsAt4_A V c t h0 (by omega)]
  dsimp only
  rw [sout4_A_eq, PoolVal.k4_pay2_apply, PoolVal.k4_pay1_apply, block_sum4 V c t g j _ _ rfl rfl]

/-- After a later point the accumulator's `(g, j)` is what the point before left plus this point's contribution. -/
theorem acc_step4 (c : Dev nD) (t : Fin cfg4.N) (h0 : ¬t.val = 0) (g : Fin 64) (j : Fin 128) :
    (outsAt4 V c t.val t.isLt).2 (ix2 g j)
      = (outsAt4 V c (t.val - 1) (Nat.lt_of_le_of_lt (Nat.sub_le _ _) t.isLt)).2 (ix2 g j)
        + ∑ r : Fin 10000, rowTerm4 V c g j (t.val * 10000 + r.val) := by
  by_cases h9 : t.val = 9
  · rw [outsAt4_C V c t h0 h9]
    dsimp only
    rw [sout4_C_eq, PoolVal.k4_pay2_apply, block_sum4 V c t g j _ _ rfl rfl]
  · rw [outsAt4_B V c t h0 h9]
    dsimp only
    rw [sout4_B_eq, PoolVal.k4_pay2_apply, block_sum4 V c t g j _ _ rfl rfl]

/-- After point `n` the accumulator's `(g, j)` is zero plus the contributions of the blocks of points `0 .. n`. -/
theorem acc_upto4 (c : Dev nD) (g : Fin 64) (j : Fin 128) : ∀ (n : ℕ) (hn : n < cfg4.N),
    (outsAt4 V c n hn).2 (ix2 g j)
      = 0 + ∑ t ∈ Finset.range (n + 1), ∑ r : Fin 10000, rowTerm4 V c g j (t * 10000 + r.val)
  | 0, hn => by
    rw [Finset.sum_range_one]
    exact acc_first4 V c ⟨0, hn⟩ rfl g j
  | n + 1, hn => by
    rw [Finset.sum_range_succ, ← add_assoc, ← acc_upto4 c g j n (Nat.lt_of_succ_lt hn)]
    exact acc_step4 V c ⟨n + 1, hn⟩ (Nat.succ_ne_zero n) g j

/-- After the last point the accumulator's `(g, j)` is zero plus the sum over all 100000 rows `i` of the one-hot
    matrix's `(i, g)` times the features' `(i, j)`. -/
theorem acc_last4 (c : Dev nD) (t : Fin cfg4.N) (h9 : t.val = 9) (g : Fin 64) (j : Fin 128) :
    (outsAt4 V c t.val t.isLt).2 (ix2 g j)
      = (0 : EReal) + ∑ i : Fin 100000, onehot4 V c (ix2 i g) * feats4 V c (ix2 i j) := by
  rw [acc_upto4 V c g j t.val t.isLt, h9, Finset.sum_range,
    ← PoolVal.sum_blocks (fun i : Fin 100000 => onehot4 V c (ix2 i g) * feats4 V c (ix2 i j))]
  refine congrArg (fun s : EReal => (0 : EReal) + s) ?_
  refine Finset.sum_congr rfl fun p _ => ?_
  refine Finset.sum_congr rfl fun r _ => ?_
  exact rowTerm4_of_lt V c g j _ _

/-! ## The output array -/

/-- At the last point the body leaves in the output's buffer what it leaves in the accumulator. -/
theorem out_eq_acc_last4 (c : Dev nD) (t : Fin cfg4.N) (h9 : t.val = 9) :
    (outsAt4 V c t.val t.isLt).1 = (outsAt4 V c t.val t.isLt).2 := by
  rw [outsAt4_C V c t (by omega) h9]
  dsimp only
  rw [out4_C_eq, sout4_C_eq]

/-- The pooled sums: entry `(g, j)` is zero plus the sum over all rows `i` of one-hot `(i, g)` times features `(i, j)`. -/
def pooled4 (oh : Vec Ideal S100000x64 .bf16) (h : Vec Ideal S100000x128 .f32) : Vec Ideal S64x128 .f32 :=
  fun y => (0 : EReal) + ∑ i : Fin 100000, oh (ix2 i (y 0 : Fin 64)) * h (ix2 i (y 1 : Fin 128))

theorem pooled4_apply (oh : Vec Ideal S100000x64 .bf16) (h : Vec Ideal S100000x128 .f32) (g : Fin 64) (j : Fin 128) :
    pooled4 oh h (ix2 g j) = (0 : EReal) + ∑ i : Fin 100000, oh (ix2 i g) * h (ix2 i j) := rfl

/-- The only point that writes the output back is the last. -/
theorem flush_last4 (t : Fin cfg4.N) (hf : (cfg4.win 2).flush t = true) : t.val = 9 := by
  have ht : t.val < 10 := lt_of_lt_of_eq t.isLt N_4
  have := (flush4_2 t).mp hf
  omega

/-- What a flushing point writes back is its block, the whole array, of the pooled sums. -/
theorem flushed4_eq (c : Dev nD) (t : Fin cfg4.N) (hf : (cfg4.win 2).flush t = true) :
    (dat4 (F := Ideal) V c).flushed 2 t
      = ((cfg4.win 2).blk t).view.read (Elt Ideal) (pooled4 (onehot4 V c) (feats4 V c)) := by
  have h9 : t.val = 9 := flush_last4 t hf
  show (cfg4.win 2).cut (grid4.coords t) ((dat4 V c).after 2 t) = _
  rw [after4_2, out_eq_acc_last4 V c t h9]
  obtain ⟨-, -, -, -, e0, e1⟩ := block_indices4 t
  funext y
  obtain ⟨g, j, rfl⟩ : ∃ (g : Fin 64) (j : Fin 128), y = ix2 g j := ⟨y 0, y 1, eq_ix2 y⟩
  show (outsAt4 V c t.val t.isLt).2 (ix2 g j)
    = pooled4 (onehot4 V c) (feats4 V c) (((cfg4.win 2).blk t).view.emb (ix2 g j))
  have hi : ((cfg4.win 2).blk t).view.emb (ix2 g j) = ix2 g j := by
    funext a
    apply Fin.ext
    match a with
    | ⟨0, _⟩ => show win4_2.index t (0 : Fin 2) * 64 + 1 * g.val = g.val; omega
    | ⟨1, _⟩ => show win4_2.index t (1 : Fin 2) * 128 + 1 * j.val = j.val; omega
  rw [hi, pooled4_apply]
  exact acc_last4 V c t h9 g j

/-- An entry of the output lies in point `t`'s block exactly when, on each axis, its coordinate is in the block's
    range there. -/
theorem mem_block4 (t : Fin cfg4.N) (i : S64x128.Idx) :
    i ∈ ((cfg4.win 2).blk t).view.set ↔ ∀ a : Fin 2, win4_2.index t a * S64x128.size a ≤ (i a).val
      ∧ (i a).val < win4_2.index t a * S64x128.size a + S64x128.size a := by
  show i ∈ ((View.whole main_v71).slice (win4_2.rect t)).set ↔ _
  rw [View.set_slice_whole, Rect.mem_set_unit]
  exact Iff.rfl

/-- The last point's block is the whole output: every entry lies in it. -/
theorem covered4 (i : S64x128.Idx) :
    ∃ t : Fin cfg4.N, (cfg4.win 2).flush t = true ∧ i ∈ ((cfg4.win 2).blk t).view.set := by
  have hp : (i 0).val < 64 := (i 0).isLt
  have hq : (i 1).val < 128 := (i 1).isLt
  have hlt : 9 < cfg4.N := lt_of_lt_of_eq (show 9 < 10 by omega) N_4.symm
  obtain ⟨-, -, -, -, e0, e1⟩ := block_indices4 ⟨9, hlt⟩
  refine ⟨⟨9, hlt⟩, (flush4_2 _).mpr rfl, ?_⟩
  rw [mem_block4]
  intro a
  match a with
  | ⟨0, _⟩ =>
    show win4_2.index ⟨9, hlt⟩ (0 : Fin 2) * 64 ≤ (i 0).val ∧ (i 0).val < win4_2.index ⟨9, hlt⟩ (0 : Fin 2) * 64 + 64
    rw [e0]; omega
  | ⟨1, _⟩ =>
    show win4_2.index ⟨9, hlt⟩ (1 : Fin 2) * 128 ≤ (i 1).val ∧ (i 1).val < win4_2.index ⟨9, hlt⟩ (1 : Fin 2) * 128 + 128
    rw [e1]; omega

/-- The output array after all ten points holds the pooled sums. -/
theorem array4_eq (c : Dev nD) :
    (dat4 (F := Ideal) V c).arrAt 2 cfg4.N = pooled4 (onehot4 V c) (feats4 V c) :=
  (dat4 (F := Ideal) V c).arrAt_eq_of_cover 2 (pooled4 (onehot4 V c) (feats4 V c))
    (fun t hf => flushed4_eq V c t hf) covered4

/-- Entry `(g, j)` of the output array after all ten points: zero plus the sum over all 100000 rows `i` of the
    one-hot matrix's `(i, g)` times the features' `(i, j)`. -/
theorem final4 (c : Dev nD) (g : Fin 64) (j : Fin 128) :
    (dat4 (F := Ideal) V c).arrAt 2 cfg4.N (ix2 g j)
      = (0 : EReal) + ∑ i : Fin 100000, onehot4 V c (ix2 i g) * feats4 V c (ix2 i j) :=
  (congrFun (array4_eq V c) (ix2 g j)).trans (pooled4_apply _ _ g j)

end Array

end Cert.KernelIdeal.Reg

end
-- ==== Proof.KI.Stretch5.lean ====
import proofs.«414571_j14362370638253_1_alg».proof.Proof.Gen.KernelIdeal.Regions
import proofs.«414571_j14362370638253_1_alg».proof.Proof.RefRead
import Idealize.ShloMosaic.Lib.StableHlo.Run

/-!
# From pooled sums to the mean-pooled score

After the last region both programs hold, for each of the 64 graphs, the sum over that graph's nodes of the
128 hidden features. What follows is the same arithmetic on both sides:

* count each graph's nodes: start from a zero vector of length 64 and, for each of the 100000 nodes, add a one at
  the position its graph id names;
* replace each count by the larger of the count and one, so that an empty graph divides by one;
* divide every row of the 64 × 128 matrix of sums by its graph's count (the count spread along the feature axis):
  this is the mean over the graph's nodes;
* multiply the 64 × 128 matrix of means by the 128 × 1 matrix, add the scalar bias to each of the 64 entries, and
  drop the axis of length one.

Since the operations are the same, one after another, the two results agree as soon as the values going in agree:
the pooled sums (the hypothesis), the graph ids, the 128 × 1 matrix and the scalar bias (arguments, which nothing
before this point has written). No operation is opened: the two terms are compared as they stand.
-/

noncomputable section

namespace Cert.KernelIdeal.Bridge

open Cert.KernelIdeal Cert.KernelIdeal.Gen Idealize.ShloMosaic Idealize.ShloMosaic.TcCoe

variable {F : FTy → Type} [FloatOps F]
variable (m : (ℓ : Loc nD τ sig) → Buf (Elt F) ℓ) (outs : Outs (F := F)) (c : Dev nD)

/-- If the pooling region leaves the reference's per-graph sums of hidden features, then the program's final
    array is the reference's final value: per graph, the mean of its nodes' features (the sum divided by the larger
    of the node count and one) times the 128 × 1 matrix, plus the bias. The graph ids, the matrix and the bias are
    read as launched. -/
theorem stretch5_v85
    (x0 : (⟨Cert.ReferenceIdeal.S100000x128, .f32⟩ : BufTy).Contents (Elt F))
    (x1 : (⟨Cert.ReferenceIdeal.S2x1600000, .i32⟩ : BufTy).Contents (Elt F))
    (x3 x5 : (⟨Cert.ReferenceIdeal.S128x128, .f32⟩ : BufTy).Contents (Elt F))
    (x4 x6 : (⟨Cert.ReferenceIdeal.S128, .f32⟩ : BufTy).Contents (Elt F))
    (h71 : outs 11 main_v71 c
      = Cert.ReferenceIdeal.ReadP.val_main_v70 (F := F) x0 x1 (m ((c.tc : Thread nD τ).loc main_arg2)) x3 x4 x5 x6) :
    V12 m outs c main_v85
      = Cert.ReferenceIdeal.ReadP.val_main_v84 (F := F) x0 x1 (m ((c.tc : Thread nD τ).loc main_arg2)) x3 x4 x5 x6
          (m ((c.tc : Thread nD τ).loc main_arg7)) (m ((c.tc : Thread nD τ).loc main_arg8)) := by
  -- the pooled sums are what the last region left, and the hypothesis says what that is
  have e71 : V11 m outs c main_v71
      = Cert.ReferenceIdeal.ReadP.val_main_v70 (F := F) x0 x1 (m ((c.tc : Thread nD τ).loc main_arg2)) x3 x4 x5 x6 := by
    dsimp only [V11]
    rw [Function.update_self]
    exact h71
  -- the graph ids, the 128 × 1 matrix and the bias are arguments: nothing has written them since the launch
  have e2 : V11 m outs c main_arg2 = m ((c.tc : Thread nD τ).loc main_arg2) :=
    (V12_of m outs c main_arg2 (by decide)).symm.trans (V12_main_arg2 m outs c)
  have e7 : V11 m outs c main_arg7 = m ((c.tc : Thread nD τ).loc main_arg7) :=
    (V12_of m outs c main_arg7 (by decide)).symm.trans (V12_main_arg7 m outs c)
  have e8 : V11 m outs c main_arg8 = m ((c.tc : Thread nD τ).loc main_arg8) :=
    (V12_of m outs c main_arg8 (by decide)).symm.trans (V12_main_arg8 m outs c)
  -- the final array as the seventeen operations applied to those four values
  dsimp only [V12]
  after_results_simp
  rw [e71, e2, e7, e8]
  -- the reference's final value is the same seventeen operations applied to the same four values
  simp only [Cert.ReferenceIdeal.ReadP.val_main_v84, Cert.ReferenceIdeal.ReadP.val_main_v83,
    Cert.ReferenceIdeal.ReadP.val_main_v82, Cert.ReferenceIdeal.ReadP.val_main_v81,
    Cert.ReferenceIdeal.ReadP.val_main_v80, Cert.ReferenceIdeal.ReadP.val_main_v79,
    Cert.ReferenceIdeal.ReadP.val_main_v78, Cert.ReferenceIdeal.ReadP.val_main_v77,
    Cert.ReferenceIdeal.ReadP.val_main_v76, Cert.ReferenceIdeal.ReadP.val_main_v75,
    Cert.ReferenceIdeal.ReadP.val_main_v74, Cert.ReferenceIdeal.ReadP.val_main_v73,
    Cert.ReferenceIdeal.ReadP.val_main_v72, Cert.ReferenceIdeal.ReadP.val_main_v71,
    Cert.ReferenceIdeal.ReadP.val_main_cst_14, Cert.ReferenceIdeal.ReadP.val_main_cst_15,
    Cert.ReferenceIdeal.ReadP.val_main_cst_16]
  rfl

end Cert.KernelIdeal.Bridge
-- ==== Proof.KI.Value2.lean ====
/-
  The pooling, the shared tail, and the idealized kernel program's run with its result named.

  The pooling region leaves in its output array, entry by entry, zero plus the sum over all 100000 rows of one-hot
  entry times feature entry. The one-hot entry is one where the row's graph id, read signed, is the column, and zero
  elsewhere; one times a number is the number and zero times it is zero; so the sum is over the rows of that graph
  only: the reference's scatter-add of the rows into zeros at the graph ids, an id outside 0 .. 63 dropped by both.
  The tail (count each graph's rows, divide by the larger of the count and one, the last product, the bias, the
  reshape) is the same host operations on both sides. So the kernel program's result is the reference's term of the
  arguments.
-/
import proofs.«414571_j14362370638253_1_alg».proof.Proof.KI.Value1
import proofs.«414571_j14362370638253_1_alg».proof.Proof.KI.ArrR4
import proofs.«414571_j14362370638253_1_alg».proof.Proof.KI.PoolVal
import proofs.«414571_j14362370638253_1_alg».proof.Proof.KI.Stretch5

set_option maxRecDepth 16384

noncomputable section

namespace Cert.KernelIdeal.Bridge

open Cert.KernelIdeal Cert.KernelIdeal.Gen Cert.KernelIdeal.Reg
open Cert.ReferenceIdeal.ReadP Cert.ReferenceIdeal.RefVal
open Idealize.ShloMosaic Idealize.ShloMosaic.TcCoe Idealize.ShloMosaic.ValueIdx Idealize.SL.Sem

variable (m : (ℓ : Loc nD τ sig) → Buf (Elt Ideal) ℓ) (c : Dev nD)

theorem outs11_eq : outs m 11 main_v71 c = (dat4 (fun c b => U10 m c b) c).arrAt 2 cfg4.N := by
  show o11 m c main_v71 = _
  unfold o11
  exact Pipeline.withArrays_arr spec4 launch4.win.arr_inj c (U10 m c) (fun w => (dat4 (fun c b => U10 m c b) c).arrAt w cfg4.N) 2

/-- The one-hot matrix the pooling region reads is the host's compare of the graph ids with 0 .. 63. -/
theorem onehot_entry : onehot4 (fun c b => U10 m c b) c = PoolVal.onehot (a2 m c) :=
  stretch4_v70 m (outs m) c

/-- The features the pooling region reads are the reference's second rectified layer. -/
theorem pooled_features : feats4 (fun c b => U10 m c b) c
    = val_main_v67 (F := Ideal) (a0 m c) (a1 m c) (a3 m c) (a4 m c) (a5 m c) (a6 m c) :=
  (V10_of m (outs m) c main_v63 (by decide)).trans
    ((show V9 m (outs m) c main_v63 = outs m 9 main_v63 c from Function.update_self _ _ _).trans (second_layer m c))

/-- The pooling region's output array is the reference's scatter-add of the rows at the graph ids. -/
theorem pooled : outs m 11 main_v71 c
    = val_main_v70 (F := Ideal) (a0 m c) (a1 m c) (a2 m c) (a3 m c) (a4 m c) (a5 m c) (a6 m c) := by
  rw [outs11_eq]
  funext i
  obtain ⟨g, j, rfl⟩ : ∃ (g : Fin 64) (j : Fin 128), i = ix2 g j := ⟨i 0, i 1, eq_ix2 i⟩
  rw [final4, onehot_entry, pooled_features, PoolVal.pool_eq_scatter]
  rfl

/-- THE RESULT: the kernel program's result buffer at the end is the reference's term of the arguments. -/
theorem result : V12 m (outs m) c main_v85
    = val_main_v84 (F := Ideal) (a0 m c) (a1 m c) (a2 m c) (a3 m c) (a4 m c) (a5 m c) (a6 m c)
        (m ((c.tc : Thread nD τ).loc main_arg7)) (m ((c.tc : Thread nD τ).loc main_arg8)) :=
  stretch5_v85 m (outs m) c (a0 m c) (a1 m c) (a3 m c) (a5 m c) (a4 m c) (a6 m c) (pooled m c)

/-- The run with the result named: every weakly fair execution terminates, the result buffer at the last valuation's
    contents and every argument array as launched. -/
theorem run_result (ρ : Dev nD → PrngReg) :
    θ_run defs (onTc (τ := τ) (main (F := Ideal))) ⟨m, fun _ => 0, ρ⟩ (fun r => ∀ c : Dev nD,
      r.2.mem ((c.tc : Thread nD τ).loc main_v85) = V12 m (outs m) c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v85 (by decide)),
     (h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c),
     (h c _ (mem_uc main_arg6 (by decide))).trans (V12_main_arg6 m (outs m) c),
     (h c _ (mem_uc main_arg7 (by decide))).trans (V12_main_arg7 m (outs m) c),
     (h c _ (mem_uc main_arg8 (by decide))).trans (V12_main_arg8 m (outs m) c)⟩) (run_all m ρ)

end Cert.KernelIdeal.Bridge

end
-- ==== Proof.lean ====
/-
  A two-layer graph convolution with mean pooling, as a kernel program of five pipelined regions among host
  operations, against its plain reference: the two compute the same 64 numbers on the extended reals.

  Both programs build the same edge lists with self-loops and the same symmetric normalisation weights from the edge
  array, by the same host operations. A layer multiplies the node features by a 128 x 128 weight matrix, gathers the
  product's rows along the edges, weights them, adds them up at the edges' targets, adds a bias and rectifies. The
  kernel program does the product and the bias-and-rectifier in regions that walk the 100000 rows in ten blocks of
  10000; on the extended reals a block's product is the rows' sums over the 128 inner positions, so the ten blocks are
  the whole product whatever the tiling, and the format changes on the way into the product are the identity. The
  gather, the weighting and the scatter-add between the regions are the reference's own operations.

  The pooling differs in form. The reference adds each node's feature row into its graph's row, dropping a node whose
  graph id is outside 0 .. 63. The kernel program multiplies the transposed one-hot matrix of the graph ids with the
  features, ten blocks of rows accumulated in a scratch buffer that is reset at the first block and copied out after
  the last. A one-hot entry is one or zero, one times a number is the number and zero times it is zero, and a sum may
  be regrouped freely: so entry (g, j) of the product is the sum of the feature entries (i, j) over the nodes i of graph
  g — the reference's sum — and a node whose id matches no column contributes to no graph on either side. No law used
  needs the inputs finite. The division by the graphs' sizes, the last product and the bias are again the same host
  operations.

  The frames: each program runs to its end, faults nowhere and leaves its nine argument arrays as launched — for the
  kernel program at the word level and on the extended reals by running its twelve items in turn, each region under
  its pipeline's invariant; for the reference by its run read back. The idealization rewrote nothing.
-/
import proofs.«414571_j14362370638253_1_alg».proof.Defs
import proofs.«414571_j14362370638253_1_alg».proof.Proof.Gen.Kernel
import proofs.«414571_j14362370638253_1_alg».proof.Proof.Gen.KernelIdeal
import proofs.«414571_j14362370638253_1_alg».proof.Proof.Gen.ReferenceIdeal
import proofs.«414571_j14362370638253_1_alg».proof.Proof.Gen.Pre_finite_inputs
import proofs.«414571_j14362370638253_1_alg».proof.Proof.K.Run
import proofs.«414571_j14362370638253_1_alg».proof.Proof.KI.Value2
import proofs.«414571_j14362370638253_1_alg».proof.Proof.RefRun
import proofs.«414571_j14362370638253_1_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to its end and leaves its arguments as launched. -/
theorem frame_kernel : Cert.frame_Kernel := fun m ρ _ => Cert.Kernel.Reg.frame m ρ

/-- So does the kernel program read on the extended reals. -/
theorem frame_kernel_ideal : Cert.frame_KernelIdeal := fun m ρ _ => Cert.KernelIdeal.Reg.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to preserve. -/
theorem preserves : Cert.preserves_Kernel_KernelIdeal := trivial

/-- From memories agreeing on the arguments both programs end, with equal results: the kernel program's result buffer
    holds the reference's term of the arguments. -/
theorem algebraic : Cert.algebraic_KernelIdeal_ReferenceIdeal := by
  intro m ρ m' ρ' _ hagree
  refine ⟨fun c => Cert.KernelIdeal.Gen.V12 m (Cert.KernelIdeal.Reg.outs m) c Cert.KernelIdeal.main_v85,
    Cert.KernelIdeal.Bridge.run_result m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v84_eq m' c]
  obtain ⟨h0, h1, h2, h3, h4, h5, h6, h7, h8⟩ := hagree c
  rw [h0, h1, h2, h3, h4, h5, h6, h7, h8]
  exact (Cert.KernelIdeal.Bridge.result m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
